-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x32x128 : Shape := ⟨3, ![1, 32, 128]⟩
abbrev S4x32x128 : Shape := ⟨3, ![4, 32, 128]⟩
abbrev S16x32x128 : Shape := ⟨3, ![16, 32, 128]⟩
abbrev S64x32x128 : Shape := ⟨3, ![64, 32, 128]⟩
abbrev S256x32x128 : Shape := ⟨3, ![256, 32, 128]⟩
abbrev S5x100000 : Shape := ⟨2, ![5, 100000]⟩
abbrev S500000 : Shape := ⟨1, ![500000]⟩
abbrev S_ : Shape := ⟨0, ![]⟩
abbrev S1x100000 : Shape := ⟨2, ![1, 100000]⟩
abbrev S100000 : Shape := ⟨1, ![100000]⟩

class Facts : Prop where
  bcast_S_S1x32x128 : S_.BroadcastsInDim S1x32x128 (![] : Fin 0 → Fin S1x32x128.rank)
  reducesTo_S1x32x128_S_d0_1_2 : S1x32x128.ReducesTo [0, 1, 2] S_
  h_S_ : 0 < S_.numel
  bcast_S_S4x32x128 : S_.BroadcastsInDim S4x32x128 (![] : Fin 0 → Fin S4x32x128.rank)
  reducesTo_S4x32x128_S_d0_1_2 : S4x32x128.ReducesTo [0, 1, 2] S_
  bcast_S_S16x32x128 : S_.BroadcastsInDim S16x32x128 (![] : Fin 0 → Fin S16x32x128.rank)
  reducesTo_S16x32x128_S_d0_1_2 : S16x32x128.ReducesTo [0, 1, 2] S_
  bcast_S_S64x32x128 : S_.BroadcastsInDim S64x32x128 (![] : Fin 0 → Fin S64x32x128.rank)
  reducesTo_S64x32x128_S_d0_1_2 : S64x32x128.ReducesTo [0, 1, 2] S_
  bcast_S_S256x32x128 : S_.BroadcastsInDim S256x32x128 (![] : Fin 0 → Fin S256x32x128.rank)
  reducesTo_S256x32x128_S_d0_1_2 : S256x32x128.ReducesTo [0, 1, 2] S_
  bcast_S_S500000 : S_.BroadcastsInDim S500000 (![] : Fin 0 → Fin S500000.rank)
  reducesTo_S500000_S_d0 : S500000.ReducesTo [0] S_
  slices_S5x100000_S1x100000_0_0 : S5x100000.Slices ![0, 0] S1x100000
  shapeCasts_S1x100000_S100000 : S1x100000.ShapeCasts S100000
  bcast_S_S100000 : S_.BroadcastsInDim S100000 (![] : Fin 0 → Fin S100000.rank)
  reducesTo_S100000_S_d0 : S100000.ReducesTo [0] S_
  slices_S5x100000_S1x100000_1_0 : S5x100000.Slices ![1, 0] S1x100000
  slices_S5x100000_S1x100000_2_0 : S5x100000.Slices ![2, 0] S1x100000
  slices_S5x100000_S1x100000_3_0 : S5x100000.Slices ![3, 0] S1x100000
  slices_S5x100000_S1x100000_4_0 : S5x100000.Slices ![4, 0] S1x100000

variable [Facts]

def fn_part4 {F : FTy → Type} [FloatOps F] (main_arg5 : IVec S5x100000 32) (main_v63 : IVec S_ 1) (main_v67 : IVec S100000 1) (main_v71 : IVec S100000 1) : IVec S_ 1 :=
  let main_v72 : IVec S100000 1 := andi main_v67 main_v71
  let main_c_22 : IVec S_ 1 := constantI S_ 1 1#1
  let main_v73 : IVec S_ 1 := (fun x v => Host.reduce IntOp.andi x v reducesTo_S100000_S_d0 h_S_) main_v72 main_c_22
  let main_v74 : IVec S_ 1 := andi main_v63 main_v73
  let main_v75 : IVec S1x100000 32 := (extractStridedSlice S1x100000 ![4, 0] · slices_S5x100000_S1x100000_4_0) main_arg5
  let main_v76 : IVec S100000 32 := shapeCast S100000 main_v75 shapeCasts_S1x100000_S100000
  let main_c_23 : IVec S_ 32 := constantI S_ 32 0#32
  let main_v77 : IVec S100000 32 := broadcastInDim S100000 ![] bcast_S_S100000 main_c_23
  let main_v78 : IVec S100000 1 := cmpi .sge main_v76 main_v77
  let main_v79 : IVec S1x100000 32 := (extractStridedSlice S1x100000 ![4, 0] · slices_S5x100000_S1x100000_4_0) main_arg5
  let main_v80 : IVec S100000 32 := shapeCast S100000 main_v79 shapeCasts_S1x100000_S100000
  let main_c_24 : IVec S_ 32 := constantI S_ 32 256#32
  let main_v81 : IVec S100000 32 := broadcastInDim S100000 ![] bcast_S_S100000 main_c_24
  let main_v82 : IVec S100000 1 := cmpi .slt main_v80 main_v81
  let main_v83 : IVec S100000 1 := andi main_v78 main_v82
  let main_c_25 : IVec S_ 1 := constantI S_ 1 1#1
  let main_v84 : IVec S_ 1 := (fun x v => Host.reduce IntOp.andi x v reducesTo_S100000_S_d0 h_S_) main_v83 main_c_25
  let main_v85 : IVec S_ 1 := andi main_v74 main_v84
  main_v85

def fn_part3 {F : FTy → Type} [FloatOps F] (main_arg5 : IVec S5x100000 32) (main_v52 : IVec S_ 1) : IVec S_ 1 :=
  let main_v53 : IVec S1x100000 32 := (extractStridedSlice S1x100000 ![2, 0] · slices_S5x100000_S1x100000_2_0) main_arg5
  let main_v54 : IVec S100000 32 := shapeCast S100000 main_v53 shapeCasts_S1x100000_S100000
  let main_c_17 : IVec S_ 32 := constantI S_ 32 0#32
  let main_v55 : IVec S100000 32 := broadcastInDim S100000 ![] bcast_S_S100000 main_c_17
  let main_v56 : IVec S100000 1 := cmpi .sge main_v54 main_v55
  let main_v57 : IVec S1x100000 32 := (extractStridedSlice S1x100000 ![2, 0] · slices_S5x100000_S1x100000_2_0) main_arg5
  let main_v58 : IVec S100000 32 := shapeCast S100000 main_v57 shapeCasts_S1x100000_S100000
  let main_c_18 : IVec S_ 32 := constantI S_ 32 16#32
  let main_v59 : IVec S100000 32 := broadcastInDim S100000 ![] bcast_S_S100000 main_c_18
  let main_v60 : IVec S100000 1 := cmpi .slt main_v58 main_v59
  let main_v61 : IVec S100000 1 := andi main_v56 main_v60
  let main_c_19 : IVec S_ 1 := constantI S_ 1 1#1
  let main_v62 : IVec S_ 1 := (fun x v => Host.reduce IntOp.andi x v reducesTo_S100000_S_d0 h_S_) main_v61 main_c_19
  let main_v63 : IVec S_ 1 := andi main_v52 main_v62
  let main_v64 : IVec S1x100000 32 := (extractStridedSlice S1x100000 ![3, 0] · slices_S5x100000_S1x100000_3_0) main_arg5
  let main_v65 : IVec S100000 32 := shapeCast S100000 main_v64 shapeCasts_S1x100000_S100000
  let main_c_20 : IVec S_ 32 := constantI S_ 32 0#32
  let main_v66 : IVec S100000 32 := broadcastInDim S100000 ![] bcast_S_S100000 main_c_20
  let main_v67 : IVec S100000 1 := cmpi .sge main_v65 main_v66
  let main_v68 : IVec S1x100000 32 := (extractStridedSlice S1x100000 ![3, 0] · slices_S5x100000_S1x100000_3_0) main_arg5
  let main_v69 : IVec S100000 32 := shapeCast S100000 main_v68 shapeCasts_S1x100000_S100000
  let main_c_21 : IVec S_ 32 := constantI S_ 32 64#32
  let main_v70 : IVec S100000 32 := broadcastInDim S100000 ![] bcast_S_S100000 main_c_21
  let main_v71 : IVec S100000 1 := cmpi .slt main_v69 main_v70
  fn_part4 (F := F) main_arg5 main_v63 main_v67 main_v71

def fn_part2 {F : FTy → Type} [FloatOps F] (main_arg5 : IVec S5x100000 32) (main_v30 : IVec S_ 1) (main_v32 : IVec S100000 32) (main_v33 : IVec S100000 32) : IVec S_ 1 :=
  let main_v34 : IVec S100000 1 := cmpi .sge main_v32 main_v33
  let main_v35 : IVec S1x100000 32 := (extractStridedSlice S1x100000 ![0, 0] · slices_S5x100000_S1x100000_0_0) main_arg5
  let main_v36 : IVec S100000 32 := shapeCast S100000 main_v35 shapeCasts_S1x100000_S100000
  let main_c_12 : IVec S_ 32 := constantI S_ 32 1#32
  let main_v37 : IVec S100000 32 := broadcastInDim S100000 ![] bcast_S_S100000 main_c_12
  let main_v38 : IVec S100000 1 := cmpi .slt main_v36 main_v37
  let main_v39 : IVec S100000 1 := andi main_v34 main_v38
  let main_c_13 : IVec S_ 1 := constantI S_ 1 1#1
  let main_v40 : IVec S_ 1 := (fun x v => Host.reduce IntOp.andi x v reducesTo_S100000_S_d0 h_S_) main_v39 main_c_13
  let main_v41 : IVec S_ 1 := andi main_v30 main_v40
  let main_v42 : IVec S1x100000 32 := (extractStridedSlice S1x100000 ![1, 0] · slices_S5x100000_S1x100000_1_0) main_arg5
  let main_v43 : IVec S100000 32 := shapeCast S100000 main_v42 shapeCasts_S1x100000_S100000
  let main_c_14 : IVec S_ 32 := constantI S_ 32 0#32
  let main_v44 : IVec S100000 32 := broadcastInDim S100000 ![] bcast_S_S100000 main_c_14
  let main_v45 : IVec S100000 1 := cmpi .sge main_v43 main_v44
  let main_v46 : IVec S1x100000 32 := (extractStridedSlice S1x100000 ![1, 0] · slices_S5x100000_S1x100000_1_0) main_arg5
  let main_v47 : IVec S100000 32 := shapeCast S100000 main_v46 shapeCasts_S1x100000_S100000
  let main_c_15 : IVec S_ 32 := constantI S_ 32 4#32
  let main_v48 : IVec S100000 32 := broadcastInDim S100000 ![] bcast_S_S100000 main_c_15
  let main_v49 : IVec S100000 1 := cmpi .slt main_v47 main_v48
  let main_v50 : IVec S100000 1 := andi main_v45 main_v49
  let main_c_16 : IVec S_ 1 := constantI S_ 1 1#1
  let main_v51 : IVec S_ 1 := (fun x v => Host.reduce IntOp.andi x v reducesTo_S100000_S_d0 h_S_) main_v50 main_c_16
  let main_v52 : IVec S_ 1 := andi main_v41 main_v51
  fn_part3 (F := F) main_arg5 main_v52

def fn_part1 {F : FTy → Type} [FloatOps F] (main_arg4 : FVec F S256x32x128 .f32) (main_arg5 : IVec S5x100000 32) (main_arg7 : IVec S500000 32) (main_v13 : IVec S_ 1) (main_v16 : IVec S64x32x128 1) : IVec S_ 1 :=
  let main_c_5 : IVec S_ 1 := constantI S_ 1 1#1
  let main_v17 : IVec S_ 1 := (fun x v => Host.reduce IntOp.andi x v reducesTo_S64x32x128_S_d0_1_2 h_S_) main_v16 main_c_5
  let main_v18 : IVec S_ 1 := andi main_v13 main_v17
  let main_v19 : FVec F S256x32x128 .f32 := Host.absf main_arg4
  let main_cst_6 : FVec F S_ .f32 := constant S_ .f32 0x7F800000#32
  let main_v20 : FVec F S256x32x128 .f32 := broadcastInDim S256x32x128 ![] bcast_S_S256x32x128 main_cst_6
  let main_v21 : IVec S256x32x128 1 := cmpf .olt main_v19 main_v20
  let main_c_7 : IVec S_ 1 := constantI S_ 1 1#1
  let main_v22 : IVec S_ 1 := (fun x v => Host.reduce IntOp.andi x v reducesTo_S256x32x128_S_d0_1_2 h_S_) main_v21 main_c_7
  let main_v23 : IVec S_ 1 := andi main_v18 main_v22
  let main_c_8 : IVec S_ 32 := constantI S_ 32 0#32
  let main_v24 : IVec S500000 32 := broadcastInDim S500000 ![] bcast_S_S500000 main_c_8
  let main_v25 : IVec S500000 1 := cmpi .sge main_arg7 main_v24
  let main_c_9 : IVec S_ 32 := constantI S_ 32 32#32
  let main_v26 : IVec S500000 32 := broadcastInDim S500000 ![] bcast_S_S500000 main_c_9
  let main_v27 : IVec S500000 1 := cmpi .slt main_arg7 main_v26
  let main_v28 : IVec S500000 1 := andi main_v25 main_v27
  let main_c_10 : IVec S_ 1 := constantI S_ 1 1#1
  let main_v29 : IVec S_ 1 := (fun x v => Host.reduce IntOp.andi x v reducesTo_S500000_S_d0 h_S_) main_v28 main_c_10
  let main_v30 : IVec S_ 1 := andi main_v23 main_v29
  let main_v31 : IVec S1x100000 32 := (extractStridedSlice S1x100000 ![0, 0] · slices_S5x100000_S1x100000_0_0) main_arg5
  let main_v32 : IVec S100000 32 := shapeCast S100000 main_v31 shapeCasts_S1x100000_S100000
  let main_c_11 : IVec S_ 32 := constantI S_ 32 0#32
  let main_v33 : IVec S100000 32 := broadcastInDim S100000 ![] bcast_S_S100000 main_c_11
  fn_part2 (F := F) main_arg5 main_v30 main_v32 main_v33

def fn {F : FTy → Type} [FloatOps F] (main_arg0 : FVec F S1x32x128 .f32) (main_arg1 : FVec F S4x32x128 .f32) (main_arg2 : FVec F S16x32x128 .f32) (main_arg3 : FVec F S64x32x128 .f32) (main_arg4 : FVec F S256x32x128 .f32) (main_arg5 : IVec S5x100000 32) (main_arg6 : IVec S500000 32) (main_arg7 : IVec S500000 32) : IVec S_ 1 :=
  let main_v0 : FVec F S1x32x128 .f32 := Host.absf main_arg0
  let main_cst : FVec F S_ .f32 := constant S_ .f32 0x7F800000#32
  let main_v1 : FVec F S1x32x128 .f32 := broadcastInDim S1x32x128 ![] bcast_S_S1x32x128 main_cst
  let main_v2 : IVec S1x32x128 1 := cmpf .olt main_v0 main_v1
  let main_c : IVec S_ 1 := constantI S_ 1 1#1
  let main_v3 : IVec S_ 1 := (fun x v => Host.reduce IntOp.andi x v reducesTo_S1x32x128_S_d0_1_2 h_S_) main_v2 main_c
  let main_v4 : FVec F S4x32x128 .f32 := Host.absf main_arg1
  let main_cst_0 : FVec F S_ .f32 := constant S_ .f32 0x7F800000#32
  let main_v5 : FVec F S4x32x128 .f32 := broadcastInDim S4x32x128 ![] bcast_S_S4x32x128 main_cst_0
  let main_v6 : IVec S4x32x128 1 := cmpf .olt main_v4 main_v5
  let main_c_1 : IVec S_ 1 := constantI S_ 1 1#1
  let main_v7 : IVec S_ 1 := (fun x v => Host.reduce IntOp.andi x v reducesTo_S4x32x128_S_d0_1_2 h_S_) main_v6 main_c_1
  let main_v8 : IVec S_ 1 := andi main_v3 main_v7
  let main_v9 : FVec F S16x32x128 .f32 := Host.absf main_arg2
  let main_cst_2 : FVec F S_ .f32 := constant S_ .f32 0x7F800000#32
  let main_v10 : FVec F S16x32x128 .f32 := broadcastInDim S16x32x128 ![] bcast_S_S16x32x128 main_cst_2
  let main_v11 : IVec S16x32x128 1 := cmpf .olt main_v9 main_v10
  let main_c_3 : IVec S_ 1 := constantI S_ 1 1#1
  let main_v12 : IVec S_ 1 := (fun x v => Host.reduce IntOp.andi x v reducesTo_S16x32x128_S_d0_1_2 h_S_) main_v11 main_c_3
  let main_v13 : IVec S_ 1 := andi main_v8 main_v12
  let main_v14 : FVec F S64x32x128 .f32 := Host.absf main_arg3
  let main_cst_4 : FVec F S_ .f32 := constant S_ .f32 0x7F800000#32
  let main_v15 : FVec F S64x32x128 .f32 := broadcastInDim S64x32x128 ![] bcast_S_S64x32x128 main_cst_4
  let main_v16 : IVec S64x32x128 1 := cmpf .olt main_v14 main_v15
  fn_part1 (F := F) main_arg4 main_arg5 main_arg7 main_v13 main_v16
-- ==== Kernel.lean ====
abbrev S1x32x128 : Shape := ⟨3, ![1, 32, 128]⟩
abbrev S4x32x128 : Shape := ⟨3, ![4, 32, 128]⟩
abbrev S16x32x128 : Shape := ⟨3, ![16, 32, 128]⟩
abbrev S64x32x128 : Shape := ⟨3, ![64, 32, 128]⟩
abbrev S256x32x128 : Shape := ⟨3, ![256, 32, 128]⟩
abbrev S5x100000 : Shape := ⟨2, ![5, 100000]⟩
abbrev S500000 : Shape := ⟨1, ![500000]⟩
abbrev S_ : Shape := ⟨0, ![]⟩
abbrev S500000x1 : Shape := ⟨2, ![500000, 1]⟩
abbrev S5x500000 : Shape := ⟨2, ![5, 500000]⟩
abbrev S1x500000 : Shape := ⟨2, ![1, 500000]⟩
abbrev S500224 : Shape := ⟨1, ![500224]⟩
abbrev S500224x1 : Shape := ⟨2, ![500224, 1]⟩
abbrev S32x128 : Shape := ⟨2, ![32, 128]⟩
abbrev S128x128 : Shape := ⟨2, ![128, 128]⟩
abbrev S512x128 : Shape := ⟨2, ![512, 128]⟩
abbrev S2048x128 : Shape := ⟨2, ![2048, 128]⟩
abbrev S8192x128 : Shape := ⟨2, ![8192, 128]⟩
abbrev S500224x128 : Shape := ⟨2, ![500224, 128]⟩
abbrev S512x1 : Shape := ⟨2, ![512, 1]⟩
abbrev S1x32 : Shape := ⟨2, ![1, 32]⟩
abbrev S512x32 : Shape := ⟨2, ![512, 32]⟩
abbrev S1x128 : Shape := ⟨2, ![1, 128]⟩
abbrev S1x512 : Shape := ⟨2, ![1, 512]⟩
abbrev S512x512 : Shape := ⟨2, ![512, 512]⟩
abbrev S1x2048 : Shape := ⟨2, ![1, 2048]⟩
abbrev S512x2048 : Shape := ⟨2, ![512, 2048]⟩
abbrev S1x8192 : Shape := ⟨2, ![1, 8192]⟩
abbrev S512x8192 : Shape := ⟨2, ![512, 8192]⟩
abbrev S500000x128 : Shape := ⟨2, ![500000, 128]⟩

abbrev nBuf : Space → Nat
  | .hbm => 79
  | .vmem => 17
  | .smem => 0
  | _ => 0

abbrev bufTy : (tb : Table) → Fin (tcTables nBuf tb) → BufTy
  | .hbm, ⟨0, _⟩ => ⟨S1x32x128, .f32⟩
  | .hbm, ⟨1, _⟩ => ⟨S4x32x128, .f32⟩
  | .hbm, ⟨2, _⟩ => ⟨S16x32x128, .f32⟩
  | .hbm, ⟨3, _⟩ => ⟨S64x32x128, .f32⟩
  | .hbm, ⟨4, _⟩ => ⟨S256x32x128, .f32⟩
  | .hbm, ⟨5, _⟩ => ⟨S5x100000, .i32⟩
  | .hbm, ⟨6, _⟩ => ⟨S500000, .i32⟩
  | .hbm, ⟨7, _⟩ => ⟨S500000, .i32⟩
  | .hbm, ⟨8, _⟩ => ⟨S_, .i32⟩
  | .hbm, ⟨9, _⟩ => ⟨S500000, .i32⟩
  | .hbm, ⟨10, _⟩ => ⟨S500000, .i1⟩
  | .hbm, ⟨11, _⟩ => ⟨S_, .i32⟩
  | .hbm, ⟨12, _⟩ => ⟨S500000, .i32⟩
  | .hbm, ⟨13, _⟩ => ⟨S500000, .i32⟩
  | .hbm, ⟨14, _⟩ => ⟨S500000, .i32⟩
  | .hbm, ⟨15, _⟩ => ⟨S500000x1, .i32⟩
  | .hbm, ⟨16, _⟩ => ⟨S5x500000, .i32⟩
  | .hbm, ⟨17, _⟩ => ⟨S1x500000, .i32⟩
  | .hbm, ⟨18, _⟩ => ⟨S500000, .i32⟩
  | .hbm, ⟨19, _⟩ => ⟨S_, .i32⟩
  | .hbm, ⟨20, _⟩ => ⟨S500000, .i32⟩
  | .hbm, ⟨21, _⟩ => ⟨S500000, .i32⟩
  | .hbm, ⟨22, _⟩ => ⟨S500000, .i32⟩
  | .hbm, ⟨23, _⟩ => ⟨S_, .i32⟩
  | .hbm, ⟨24, _⟩ => ⟨S_, .i32⟩
  | .hbm, ⟨25, _⟩ => ⟨S500224, .i32⟩
  | .hbm, ⟨26, _⟩ => ⟨S500224x1, .i32⟩
  | .hbm, ⟨27, _⟩ => ⟨S32x128, .f32⟩
  | .hbm, ⟨28, _⟩ => ⟨S32x128, .bf16⟩
  | .hbm, ⟨29, _⟩ => ⟨S1x500000, .i32⟩
  | .hbm, ⟨30, _⟩ => ⟨S500000, .i32⟩
  | .hbm, ⟨31, _⟩ => ⟨S_, .i32⟩
  | .hbm, ⟨32, _⟩ => ⟨S500000, .i32⟩
  | .hbm, ⟨33, _⟩ => ⟨S500000, .i32⟩
  | .hbm, ⟨34, _⟩ => ⟨S500000, .i32⟩
  | .hbm, ⟨35, _⟩ => ⟨S_, .i32⟩
  | .hbm, ⟨36, _⟩ => ⟨S_, .i32⟩
  | .hbm, ⟨37, _⟩ => ⟨S500224, .i32⟩
  | .hbm, ⟨38, _⟩ => ⟨S500224x1, .i32⟩
  | .hbm, ⟨39, _⟩ => ⟨S128x128, .f32⟩
  | .hbm, ⟨40, _⟩ => ⟨S128x128, .bf16⟩
  | .hbm, ⟨41, _⟩ => ⟨S1x500000, .i32⟩
  | .hbm, ⟨42, _⟩ => ⟨S500000, .i32⟩
  | .hbm, ⟨43, _⟩ => ⟨S_, .i32⟩
  | .hbm, ⟨44, _⟩ => ⟨S500000, .i32⟩
  | .hbm, ⟨45, _⟩ => ⟨S500000, .i32⟩
  | .hbm, ⟨46, _⟩ => ⟨S500000, .i32⟩
  | .hbm, ⟨47, _⟩ => ⟨S_, .i32⟩
  | .hbm, ⟨48, _⟩ => ⟨S_, .i32⟩
  | .hbm, ⟨49, _⟩ => ⟨S500224, .i32⟩
  | .hbm, ⟨50, _⟩ => ⟨S500224x1, .i32⟩
  | .hbm, ⟨51, _⟩ => ⟨S512x128, .f32⟩
  | .hbm, ⟨52, _⟩ => ⟨S512x128, .bf16⟩
  | .hbm, ⟨53, _⟩ => ⟨S1x500000, .i32⟩
  | .hbm, ⟨54, _⟩ => ⟨S500000, .i32⟩
  | .hbm, ⟨55, _⟩ => ⟨S_, .i32⟩
  | .hbm, ⟨56, _⟩ => ⟨S500000, .i32⟩
  | .hbm, ⟨57, _⟩ => ⟨S500000, .i32⟩
  | .hbm, ⟨58, _⟩ => ⟨S500000, .i32⟩
  | .hbm, ⟨59, _⟩ => ⟨S_, .i32⟩
  | .hbm, ⟨60, _⟩ => ⟨S_, .i32⟩
  | .hbm, ⟨61, _⟩ => ⟨S500224, .i32⟩
  | .hbm, ⟨62, _⟩ => ⟨S500224x1, .i32⟩
  | .hbm, ⟨63, _⟩ => ⟨S2048x128, .f32⟩
  | .hbm, ⟨64, _⟩ => ⟨S2048x128, .bf16⟩
  | .hbm, ⟨65, _⟩ => ⟨S1x500000, .i32⟩
  | .hbm, ⟨66, _⟩ => ⟨S500000, .i32⟩
  | .hbm, ⟨67, _⟩ => ⟨S_, .i32⟩
  | .hbm, ⟨68, _⟩ => ⟨S500000, .i32⟩
  | .hbm, ⟨69, _⟩ => ⟨S500000, .i32⟩
  | .hbm, ⟨70, _⟩ => ⟨S500000, .i32⟩
  | .hbm, ⟨71, _⟩ => ⟨S_, .i32⟩
  | .hbm, ⟨72, _⟩ => ⟨S_, .i32⟩
  | .hbm, ⟨73, _⟩ => ⟨S500224, .i32⟩
  | .hbm, ⟨74, _⟩ => ⟨S500224x1, .i32⟩
  | .hbm, ⟨75, _⟩ => ⟨S8192x128, .f32⟩
  | .hbm, ⟨76, _⟩ => ⟨S8192x128, .bf16⟩
  | .hbm, ⟨77, _⟩ => ⟨S500224x128, .f32⟩
  | .hbm, ⟨78, _⟩ => ⟨S500000x128, .f32⟩
  | .local _ .vmem, ⟨0, _⟩ => ⟨S512x1, .i32⟩
  | .local _ .vmem, ⟨1, _⟩ => ⟨S512x1, .i32⟩
  | .local _ .vmem, ⟨2, _⟩ => ⟨S512x1, .i32⟩
  | .local _ .vmem, ⟨3, _⟩ => ⟨S512x1, .i32⟩
  | .local _ .vmem, ⟨4, _⟩ => ⟨S512x1, .i32⟩
  | .local _ .vmem, ⟨5, _⟩ => ⟨S512x1, .i32⟩
  | .local _ .vmem, ⟨6, _⟩ => ⟨S512x1, .i32⟩
  | .local _ .vmem, ⟨7, _⟩ => ⟨S512x1, .i32⟩
  | .local _ .vmem, ⟨8, _⟩ => ⟨S512x1, .i32⟩
  | .local _ .vmem, ⟨9, _⟩ => ⟨S512x1, .i32⟩
  | .local _ .vmem, ⟨10, _⟩ => ⟨S32x128, .bf16⟩
  | .local _ .vmem, ⟨11, _⟩ => ⟨S128x128, .bf16⟩
  | .local _ .vmem, ⟨12, _⟩ => ⟨S512x128, .bf16⟩
  | .local _ .vmem, ⟨13, _⟩ => ⟨S2048x128, .bf16⟩
  | .local _ .vmem, ⟨14, _⟩ => ⟨S8192x128, .bf16⟩
  | .local _ .vmem, ⟨15, _⟩ => ⟨S512x128, .f32⟩
  | .local _ .vmem, ⟨16, _⟩ => ⟨S512x128, .f32⟩
  | _, _ => ⟨S1x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_call0_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_call1_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_call2_v0 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_8 : Ref sig .tc := ⟨.hbm, 59, rfl⟩
abbrev main_call3_v0 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_10 : Ref sig .tc := ⟨.hbm, 71, rfl⟩
abbrev main_call4_v0 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![977], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8192x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  slices_S5x500000_S1x500000_0_0 : S5x500000.Slices ![0, 0] S1x500000
  shapeCasts_S1x500000_S500000 : S1x500000.ShapeCasts S500000
  pads_S500000_S500224_02240 : S500000.Pads (![0] : Fin 1 → Nat) ![224] ![0] S500224
  h_S_ : 0 < S_.numel
  shapeCasts_S500224_S500224x1 : S500224.ShapeCasts S500224x1
  shapeCasts_S1x32x128_S32x128 : S1x32x128.ShapeCasts S32x128
  bitsLt_bf16_f32 : FTy.bits .bf16 < FTy.bits .f32
  slices_S5x500000_S1x500000_1_0 : S5x500000.Slices ![1, 0] S1x500000
  shapeCasts_S4x32x128_S128x128 : S4x32x128.ShapeCasts S128x128
  slices_S5x500000_S1x500000_2_0 : S5x500000.Slices ![2, 0] S1x500000
  shapeCasts_S16x32x128_S512x128 : S16x32x128.ShapeCasts S512x128
  slices_S5x500000_S1x500000_3_0 : S5x500000.Slices ![3, 0] S1x500000
  shapeCasts_S64x32x128_S2048x128 : S64x32x128.ShapeCasts S2048x128
  slices_S5x500000_S1x500000_4_0 : S5x500000.Slices ![4, 0] S1x500000
  shapeCasts_S256x32x128_S8192x128 : S256x32x128.ShapeCasts S8192x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S1x32_d1_w32 : S1x32.Iotas .tc 32 [1]
  broadcasts_S512x1_S512x32 : S512x1.Broadcasts S512x32
  broadcasts_S1x32_S512x32 : S1x32.Broadcasts S512x32
  natLt_1_32 : 1 < 32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  iota_S1x128_d1_w32 : S1x128.Iotas .tc 32 [1]
  broadcasts_S512x1_S512x128 : S512x1.Broadcasts S512x128
  broadcasts_S1x128_S512x128 : S1x128.Broadcasts S512x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  iota_S1x512_d1_w32 : S1x512.Iotas .tc 32 [1]
  broadcasts_S512x1_S512x512 : S512x1.Broadcasts S512x512
  broadcasts_S1x512_S512x512 : S1x512.Broadcasts S512x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  iota_S1x2048_d1_w32 : S1x2048.Iotas .tc 32 [1]
  broadcasts_S512x1_S512x2048 : S512x1.Broadcasts S512x2048
  broadcasts_S1x2048_S512x2048 : S1x2048.Broadcasts S512x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  iota_S1x8192_d1_w32 : S1x8192.Iotas .tc 32 [1]
  broadcasts_S512x1_S512x8192 : S512x1.Broadcasts S512x8192
  broadcasts_S1x8192_S512x8192 : S1x8192.Broadcasts S512x8192
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  slices_S500224x128_S500000x128_0_0 : S500224x128.Slices ![0, 0] S500000x128
  gather_S5x100000_S500000x1_S5x500000_0_1_n_n_1_1_51_wf : GatherDims.WF S5x100000 S500000x1 S5x500000 [0] [1] [] [1] [] 1 ![5, 1]
  dot_S512x32_S32x128_S512x128_1_0_0_1_n_n_wf : DotDims.WF S512x32 S32x128 S512x128 [1] [0] [0] [1] [] []
  dot_S512x128_S128x128_S512x128_1_0_0_1_n_n_wf : DotDims.WF S512x128 S128x128 S512x128 [1] [0] [0] [1] [] []
  dot_S512x512_S512x128_S512x128_1_0_0_1_n_n_wf : DotDims.WF S512x512 S512x128 S512x128 [1] [0] [0] [1] [] []
  dot_S512x2048_S2048x128_S512x128_1_0_0_1_n_n_wf : DotDims.WF S512x2048 S2048x128 S512x128 [1] [0] [0] [1] [] []
  dot_S512x8192_S8192x128_S512x128_1_0_0_1_n_n_wf : DotDims.WF S512x8192 S8192x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S500224x1.size a
  hwx0_0 : ∀ i : grid0.Coords, EltTy.bits .i32 = 32 ∨ (Rect.block (s := S500224x1) S512x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S500224x1.size a
  hwx0_1 : ∀ i : grid0.Coords, EltTy.bits .i32 = 32 ∨ (Rect.block (s := S500224x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S500224x1.size a
  hwx0_2 : ∀ i : grid0.Coords, EltTy.bits .i32 = 32 ∨ (Rect.block (s := S500224x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S500224x1.size a
  hwx0_3 : ∀ i : grid0.Coords, EltTy.bits .i32 = 32 ∨ (Rect.block (s := S500224x1) S512x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S500224x1.size a
  hwx0_4 : ∀ i : grid0.Coords, EltTy.bits .i32 = 32 ∨ (Rect.block (s := S500224x1) S512x1.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .bf16 = 32 ∨ (Rect.block (s := S32x128) S32x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S512x128.size a
  hwx0_7 : ∀ i : grid0.Coords, EltTy.bits .bf16 = 32 ∨ (Rect.block (s := S512x128) S512x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048x128.size a ≤ S2048x128.size a
  hwx0_8 : ∀ i : grid0.Coords, EltTy.bits .bf16 = 32 ∨ (Rect.block (s := S2048x128) S2048x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S8192x128.size a ≤ S8192x128.size a
  hwx0_9 : ∀ i : grid0.Coords, EltTy.bits .bf16 = 32 ∨ (Rect.block (s := S8192x128) S8192x128.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x128.size a ≤ S500224x128.size a
  hwx0_10 : ∀ i : grid0.Coords, EltTy.bits .f32 = 32 ∨ (Rect.block (s := S500224x128) S512x128.size (cc0_transform_10 i) (hinb0_10 i)).WholeWords (EltTy.packing .f32)

variable [Facts₀]

def gather_S5x100000_S500000x1_S5x500000_0_1_n_n_1_1_51 : GatherDims S5x100000 S500000x1 S5x500000 where
  offsetDims := [0]
  collapsedSliceDims := [1]
  operandBatchingDims := []
  startIndicesBatchingDims := []
  startIndexMap := [1]
  indexVectorDim := 1
  sliceSizes := ![5, 1]
  wf := gather_S5x100000_S500000x1_S5x500000_0_1_n_n_1_1_51_wf
def dot_S512x32_S32x128_S512x128_1_0_0_1_n_n : DotDims S512x32 S32x128 S512x128 where
  lhsContracting := [1]
  rhsContracting := [0]
  lhsNonContracting := [0]
  rhsNonContracting := [1]
  lhsBatch := []
  rhsBatch := []
  wf := dot_S512x32_S32x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x8192_S8192x128_S512x128_1_0_0_1_n_n : DotDims S512x8192 S8192x128 S512x128 where
  lhsContracting := [1]
  rhsContracting := [0]
  lhsNonContracting := [0]
  rhsNonContracting := [1]
  lhsBatch := []
  rhsBatch := []
  wf := dot_S512x8192_S8192x128_S512x128_1_0_0_1_n_n_wf

abbrev win0_0 : Pipeline.Window sig grid0 :=
  Pipeline.Window.ofSpec (Memref.whole main_v13) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v49) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15) S32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v33) S512x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v42) S2048x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v51) S8192x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v52) S512x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S1x32x128 : Shape := ⟨3, ![1, 32, 128]⟩
abbrev S4x32x128 : Shape := ⟨3, ![4, 32, 128]⟩
abbrev S16x32x128 : Shape := ⟨3, ![16, 32, 128]⟩
abbrev S64x32x128 : Shape := ⟨3, ![64, 32, 128]⟩
abbrev S256x32x128 : Shape := ⟨3, ![256, 32, 128]⟩
abbrev S5x100000 : Shape := ⟨2, ![5, 100000]⟩
abbrev S500000 : Shape := ⟨1, ![500000]⟩
abbrev S_ : Shape := ⟨0, ![]⟩
abbrev S500000x1 : Shape := ⟨2, ![500000, 1]⟩
abbrev S5x500000 : Shape := ⟨2, ![5, 500000]⟩
abbrev S1x500000 : Shape := ⟨2, ![1, 500000]⟩
abbrev S500000x2 : Shape := ⟨2, ![500000, 2]⟩
abbrev S500000x128 : Shape := ⟨2, ![500000, 128]⟩

abbrev nBuf : Space → Nat
  | .hbm => 121
  | .vmem => 0
  | .smem => 0
  | _ => 0

abbrev bufTy : (tb : Table) → Fin (tcTables nBuf tb) → BufTy
  | .hbm, ⟨0, _⟩ => ⟨S1x32x128, .f32⟩
  | .hbm, ⟨1, _⟩ => ⟨S4x32x128, .f32⟩
  | .hbm, ⟨2, _⟩ => ⟨S16x32x128, .f32⟩
  | .hbm, ⟨3, _⟩ => ⟨S64x32x128, .f32⟩
  | .hbm, ⟨4, _⟩ => ⟨S256x32x128, .f32⟩
  | .hbm, ⟨5, _⟩ => ⟨S5x100000, .i32⟩
  | .hbm, ⟨6, _⟩ => ⟨S500000, .i32⟩
  | .hbm, ⟨7, _⟩ => ⟨S500000, .i32⟩
  | .hbm, ⟨8, _⟩ => ⟨S_, .i32⟩
  | .hbm, ⟨9, _⟩ => ⟨S500000, .i32⟩
  | .hbm, ⟨10, _⟩ => ⟨S500000, .i1⟩
  | .hbm, ⟨11, _⟩ => ⟨S_, .i32⟩
  | .hbm, ⟨12, _⟩ => ⟨S500000, .i32⟩
  | .hbm, ⟨13, _⟩ => ⟨S500000, .i32⟩
  | .hbm, ⟨14, _⟩ => ⟨S500000, .i32⟩
  | .hbm, ⟨15, _⟩ => ⟨S500000x1, .i32⟩
  | .hbm, ⟨16, _⟩ => ⟨S5x500000, .i32⟩
  | .hbm, ⟨17, _⟩ => ⟨S1x500000, .i32⟩
  | .hbm, ⟨18, _⟩ => ⟨S500000, .i32⟩
  | .hbm, ⟨19, _⟩ => ⟨S_, .i32⟩
  | .hbm, ⟨20, _⟩ => ⟨S500000, .i32⟩
  | .hbm, ⟨21, _⟩ => ⟨S500000, .i1⟩
  | .hbm, ⟨22, _⟩ => ⟨S_, .i32⟩
  | .hbm, ⟨23, _⟩ => ⟨S500000, .i32⟩
  | .hbm, ⟨24, _⟩ => ⟨S500000, .i32⟩
  | .hbm, ⟨25, _⟩ => ⟨S500000, .i32⟩
  | .hbm, ⟨26, _⟩ => ⟨S_, .i32⟩
  | .hbm, ⟨27, _⟩ => ⟨S500000, .i32⟩
  | .hbm, ⟨28, _⟩ => ⟨S500000, .i1⟩
  | .hbm, ⟨29, _⟩ => ⟨S_, .i32⟩
  | .hbm, ⟨30, _⟩ => ⟨S500000, .i32⟩
  | .hbm, ⟨31, _⟩ => ⟨S500000, .i32⟩
  | .hbm, ⟨32, _⟩ => ⟨S500000, .i32⟩
  | .hbm, ⟨33, _⟩ => ⟨S500000x1, .i32⟩
  | .hbm, ⟨34, _⟩ => ⟨S500000x1, .i32⟩
  | .hbm, ⟨35, _⟩ => ⟨S500000x2, .i32⟩
  | .hbm, ⟨36, _⟩ => ⟨S500000x128, .f32⟩
  | .hbm, ⟨37, _⟩ => ⟨S1x500000, .i32⟩
  | .hbm, ⟨38, _⟩ => ⟨S500000, .i32⟩
  | .hbm, ⟨39, _⟩ => ⟨S_, .i32⟩
  | .hbm, ⟨40, _⟩ => ⟨S500000, .i32⟩
  | .hbm, ⟨41, _⟩ => ⟨S500000, .i1⟩
  | .hbm, ⟨42, _⟩ => ⟨S_, .i32⟩
  | .hbm, ⟨43, _⟩ => ⟨S500000, .i32⟩
  | .hbm, ⟨44, _⟩ => ⟨S500000, .i32⟩
  | .hbm, ⟨45, _⟩ => ⟨S500000, .i32⟩
  | .hbm, ⟨46, _⟩ => ⟨S_, .i32⟩
  | .hbm, ⟨47, _⟩ => ⟨S500000, .i32⟩
  | .hbm, ⟨48, _⟩ => ⟨S500000, .i1⟩
  | .hbm, ⟨49, _⟩ => ⟨S_, .i32⟩
  | .hbm, ⟨50, _⟩ => ⟨S500000, .i32⟩
  | .hbm, ⟨51, _⟩ => ⟨S500000, .i32⟩
  | .hbm, ⟨52, _⟩ => ⟨S500000, .i32⟩
  | .hbm, ⟨53, _⟩ => ⟨S500000x1, .i32⟩
  | .hbm, ⟨54, _⟩ => ⟨S500000x1, .i32⟩
  | .hbm, ⟨55, _⟩ => ⟨S500000x2, .i32⟩
  | .hbm, ⟨56, _⟩ => ⟨S500000x128, .f32⟩
  | .hbm, ⟨57, _⟩ => ⟨S500000x128, .f32⟩
  | .hbm, ⟨58, _⟩ => ⟨S1x500000, .i32⟩
  | .hbm, ⟨59, _⟩ => ⟨S500000, .i32⟩
  | .hbm, ⟨60, _⟩ => ⟨S_, .i32⟩
  | .hbm, ⟨61, _⟩ => ⟨S500000, .i32⟩
  | .hbm, ⟨62, _⟩ => ⟨S500000, .i1⟩
  | .hbm, ⟨63, _⟩ => ⟨S_, .i32⟩
  | .hbm, ⟨64, _⟩ => ⟨S500000, .i32⟩
  | .hbm, ⟨65, _⟩ => ⟨S500000, .i32⟩
  | .hbm, ⟨66, _⟩ => ⟨S500000, .i32⟩
  | .hbm, ⟨67, _⟩ => ⟨S_, .i32⟩
  | .hbm, ⟨68, _⟩ => ⟨S500000, .i32⟩
  | .hbm, ⟨69, _⟩ => ⟨S500000, .i1⟩
  | .hbm, ⟨70, _⟩ => ⟨S_, .i32⟩
  | .hbm, ⟨71, _⟩ => ⟨S500000, .i32⟩
  | .hbm, ⟨72, _⟩ => ⟨S500000, .i32⟩
  | .hbm, ⟨73, _⟩ => ⟨S500000, .i32⟩
  | .hbm, ⟨74, _⟩ => ⟨S500000x1, .i32⟩
  | .hbm, ⟨75, _⟩ => ⟨S500000x1, .i32⟩
  | .hbm, ⟨76, _⟩ => ⟨S500000x2, .i32⟩
  | .hbm, ⟨77, _⟩ => ⟨S500000x128, .f32⟩
  | .hbm, ⟨78, _⟩ => ⟨S500000x128, .f32⟩
  | .hbm, ⟨79, _⟩ => ⟨S1x500000, .i32⟩
  | .hbm, ⟨80, _⟩ => ⟨S500000, .i32⟩
  | .hbm, ⟨81, _⟩ => ⟨S_, .i32⟩
  | .hbm, ⟨82, _⟩ => ⟨S500000, .i32⟩
  | .hbm, ⟨83, _⟩ => ⟨S500000, .i1⟩
  | .hbm, ⟨84, _⟩ => ⟨S_, .i32⟩
  | .hbm, ⟨85, _⟩ => ⟨S500000, .i32⟩
  | .hbm, ⟨86, _⟩ => ⟨S500000, .i32⟩
  | .hbm, ⟨87, _⟩ => ⟨S500000, .i32⟩
  | .hbm, ⟨88, _⟩ => ⟨S_, .i32⟩
  | .hbm, ⟨89, _⟩ => ⟨S500000, .i32⟩
  | .hbm, ⟨90, _⟩ => ⟨S500000, .i1⟩
  | .hbm, ⟨91, _⟩ => ⟨S_, .i32⟩
  | .hbm, ⟨92, _⟩ => ⟨S500000, .i32⟩
  | .hbm, ⟨93, _⟩ => ⟨S500000, .i32⟩
  | .hbm, ⟨94, _⟩ => ⟨S500000, .i32⟩
  | .hbm, ⟨95, _⟩ => ⟨S500000x1, .i32⟩
  | .hbm, ⟨96, _⟩ => ⟨S500000x1, .i32⟩
  | .hbm, ⟨97, _⟩ => ⟨S500000x2, .i32⟩
  | .hbm, ⟨98, _⟩ => ⟨S500000x128, .f32⟩
  | .hbm, ⟨99, _⟩ => ⟨S500000x128, .f32⟩
  | .hbm, ⟨100, _⟩ => ⟨S1x500000, .i32⟩
  | .hbm, ⟨101, _⟩ => ⟨S500000, .i32⟩
  | .hbm, ⟨102, _⟩ => ⟨S_, .i32⟩
  | .hbm, ⟨103, _⟩ => ⟨S500000, .i32⟩
  | .hbm, ⟨104, _⟩ => ⟨S500000, .i1⟩
  | .hbm, ⟨105, _⟩ => ⟨S_, .i32⟩
  | .hbm, ⟨106, _⟩ => ⟨S500000, .i32⟩
  | .hbm, ⟨107, _⟩ => ⟨S500000, .i32⟩
  | .hbm, ⟨108, _⟩ => ⟨S500000, .i32⟩
  | .hbm, ⟨109, _⟩ => ⟨S_, .i32⟩
  | .hbm, ⟨110, _⟩ => ⟨S500000, .i32⟩
  | .hbm, ⟨111, _⟩ => ⟨S500000, .i1⟩
  | .hbm, ⟨112, _⟩ => ⟨S_, .i32⟩
  | .hbm, ⟨113, _⟩ => ⟨S500000, .i32⟩
  | .hbm, ⟨114, _⟩ => ⟨S500000, .i32⟩
  | .hbm, ⟨115, _⟩ => ⟨S500000, .i32⟩
  | .hbm, ⟨116, _⟩ => ⟨S500000x1, .i32⟩
  | .hbm, ⟨117, _⟩ => ⟨S500000x1, .i32⟩
  | .hbm, ⟨118, _⟩ => ⟨S500000x2, .i32⟩
  | .hbm, ⟨119, _⟩ => ⟨S500000x128, .f32⟩
  | .hbm, ⟨120, _⟩ => ⟨S500000x128, .f32⟩
  | _, _ => ⟨S1x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_c_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_7 : Ref sig .tc := ⟨.hbm, 46, rfl⟩
abbrev main_v30 : Ref sig .tc := ⟨.hbm, 47, rfl⟩
abbrev main_v31 : Ref sig .tc := ⟨.hbm, 48, rfl⟩
abbrev main_c_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_9 : Ref sig .tc := ⟨.hbm, 60, rfl⟩
abbrev main_v42 : Ref sig .tc := ⟨.hbm, 61, rfl⟩
abbrev main_v43 : Ref sig .tc := ⟨.hbm, 62, rfl⟩
abbrev main_c_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_11 : Ref sig .tc := ⟨.hbm, 67, rfl⟩
abbrev main_v47 : Ref sig .tc := ⟨.hbm, 68, rfl⟩
abbrev main_v48 : Ref sig .tc := ⟨.hbm, 69, rfl⟩
abbrev main_c_12 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_13 : Ref sig .tc := ⟨.hbm, 81, rfl⟩
abbrev main_v59 : Ref sig .tc := ⟨.hbm, 82, rfl⟩
abbrev main_v60 : Ref sig .tc := ⟨.hbm, 83, rfl⟩
abbrev main_c_14 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_15 : Ref sig .tc := ⟨.hbm, 88, rfl⟩
abbrev main_v64 : Ref sig .tc := ⟨.hbm, 89, rfl⟩
abbrev main_v65 : Ref sig .tc := ⟨.hbm, 90, rfl⟩
abbrev main_c_16 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_c_17 : Ref sig .tc := ⟨.hbm, 102, rfl⟩
abbrev main_v76 : Ref sig .tc := ⟨.hbm, 103, rfl⟩
abbrev main_v77 : Ref sig .tc := ⟨.hbm, 104, rfl⟩
abbrev main_c_18 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_c_19 : Ref sig .tc := ⟨.hbm, 109, rfl⟩
abbrev main_v81 : Ref sig .tc := ⟨.hbm, 110, rfl⟩
abbrev main_v82 : Ref sig .tc := ⟨.hbm, 111, rfl⟩
abbrev main_c_20 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  slices_S5x500000_S1x500000_0_0 : S5x500000.Slices ![0, 0] S1x500000
  shapeCasts_S1x500000_S500000 : S1x500000.ShapeCasts S500000
  concatenates_S500000x1_S500000x1_S500000x2_d1 : Shape.Concatenates [S500000x1, S500000x1] S500000x2 1
  slices_S5x500000_S1x500000_1_0 : S5x500000.Slices ![1, 0] S1x500000
  slices_S5x500000_S1x500000_2_0 : S5x500000.Slices ![2, 0] S1x500000
  slices_S5x500000_S1x500000_3_0 : S5x500000.Slices ![3, 0] S1x500000
  slices_S5x500000_S1x500000_4_0 : S5x500000.Slices ![4, 0] S1x500000
  gather_S5x100000_S500000x1_S5x500000_0_1_n_n_1_1_51_wf : GatherDims.WF S5x100000 S500000x1 S5x500000 [0] [1] [] [1] [] 1 ![5, 1]
  gather_S1x32x128_S500000x2_S500000x128_1_01_n_n_01_1_11128_wf : GatherDims.WF S1x32x128 S500000x2 S500000x128 [1] [0, 1] [] [0, 1] [] 1 ![1, 1, 128]
  gather_S4x32x128_S500000x2_S500000x128_1_01_n_n_01_1_11128_wf : GatherDims.WF S4x32x128 S500000x2 S500000x128 [1] [0, 1] [] [0, 1] [] 1 ![1, 1, 128]
  gather_S16x32x128_S500000x2_S500000x128_1_01_n_n_01_1_11128_wf : GatherDims.WF S16x32x128 S500000x2 S500000x128 [1] [0, 1] [] [0, 1] [] 1 ![1, 1, 128]
  gather_S64x32x128_S500000x2_S500000x128_1_01_n_n_01_1_11128_wf : GatherDims.WF S64x32x128 S500000x2 S500000x128 [1] [0, 1] [] [0, 1] [] 1 ![1, 1, 128]
  gather_S256x32x128_S500000x2_S500000x128_1_01_n_n_01_1_11128_wf : GatherDims.WF S256x32x128 S500000x2 S500000x128 [1] [0, 1] [] [0, 1] [] 1 ![1, 1, 128]

variable [Facts₀]

def gather_S5x100000_S500000x1_S5x500000_0_1_n_n_1_1_51 : GatherDims S5x100000 S500000x1 S5x500000 where
  offsetDims := [0]
  collapsedSliceDims := [1]
  operandBatchingDims := []
  startIndicesBatchingDims := []
  startIndexMap := [1]
  indexVectorDim := 1
  sliceSizes := ![5, 1]
  wf := gather_S5x100000_S500000x1_S5x500000_0_1_n_n_1_1_51_wf
def gather_S1x32x128_S500000x2_S500000x128_1_01_n_n_01_1_11128 : GatherDims S1x32x128 S500000x2 S500000x128 where
  offsetDims := [1]
  collapsedSliceDims := [0, 1]
  operandBatchingDims := []
  startIndicesBatchingDims := []
  startIndexMap := [0, 1]
  indexVectorDim := 1
  sliceSizes := ![1, 1, 128]
  wf := gather_S1x32x128_S500000x2_S500000x128_1_01_n_n_01_1_11128_wf
def gather_S4x32x128_S500000x2_S500000x128_1_01_n_n_01_1_11128 : GatherDims S4x32x128 S500000x2 S500000x128 where
  offsetDims := [1]
  collapsedSliceDims := [0, 1]
  operandBatchingDims := []
  startIndicesBatchingDims := []
  startIndexMap := [0, 1]
  indexVectorDim := 1
  sliceSizes := ![1, 1, 128]
  wf := gather_S4x32x128_S500000x2_S500000x128_1_01_n_n_01_1_11128_wf
def gather_S16x32x128_S500000x2_S500000x128_1_01_n_n_01_1_11128 : GatherDims S16x32x128 S500000x2 S500000x128 where
  offsetDims := [1]
  collapsedSliceDims := [0, 1]
  operandBatchingDims := []
  startIndicesBatchingDims := []
  startIndexMap := [0, 1]
  indexVectorDim := 1
  sliceSizes := ![1, 1, 128]
  wf := gather_S16x32x128_S500000x2_S500000x128_1_01_n_n_01_1_11128_wf
def gather_S64x32x128_S500000x2_S500000x128_1_01_n_n_01_1_11128 : GatherDims S64x32x128 S500000x2 S500000x128 where
  offsetDims := [1]
  collapsedSliceDims := [0, 1]
  operandBatchingDims := []
  startIndicesBatchingDims := []
  startIndexMap := [0, 1]
  indexVectorDim := 1
  sliceSizes := ![1, 1, 128]
  wf := gather_S64x32x128_S500000x2_S500000x128_1_01_n_n_01_1_11128_wf
def gather_S256x32x128_S500000x2_S500000x128_1_01_n_n_01_1_11128 : GatherDims S256x32x128 S500000x2 S500000x128 where
  offsetDims := [1]
  collapsedSliceDims := [0, 1]
  operandBatchingDims := []
  startIndicesBatchingDims := []
  startIndexMap := [0, 1]
  indexVectorDim := 1
  sliceSizes := ![1, 1, 128]
  wf := gather_S256x32x128_S500000x2_S500000x128_1_01_n_n_01_1_11128_wf

class Facts : Prop extends Facts₀ where

variable [Facts]
-- ==== Proof.Spec.lean ====
/-
  What both programs compute, as one function of the argument arrays.

  For a query b (a location and a time slice) and a topic k the result is the sum over the five pyramid levels h of
  the level's table entry  params_h[cell_h(b), t(b), k],  where cell_h(b) is the cell of level h that the query's
  location lies in and t(b) its time slice.  The cells arrive as a 5 x 500000 array of index words and the time
  slices as 500000 index words; a word is read onto an axis as jnp's indexing reads it (`axisPos`).
-/
import Idealize.ShloMosaic.PureOps.Ideal
import Idealize.ShloMosaic.Lib.ValueIdx

noncomputable section

namespace Cert.Spec

open Idealize.ShloMosaic Idealize.ShloMosaic.ValueIdx

/-- Where an index word lands on an axis of extent `n`: a negative word counts from the end of the axis, and the
    result is clamped into the axis. -/
def axisPos (n : ℕ) (w : BitVec 32) : ℕ :=
  min (Scalar.select (IntOp.cmpi .slt w 0#32) (IntOp.addi w (BitVec.ofNat 32 n)) w).toInt.toNat (n - 1)

theorem axisPos_lt {n : ℕ} (hn : 0 < n) (w : BitVec 32) : axisPos n w < n := by
  unfold axisPos; omega

/-- A word that already names a position of the axis lands there. -/
theorem axisPos_of_lt {n : ℕ} (hn : n ≤ 2 ^ 31) (w : BitVec 32) (hw : w.toNat < n) : axisPos n w = w.toNat := by
  unfold axisPos
  have hlt : w.toNat < 2 ^ 31 := by omega
  have hint : w.toInt = (w.toNat : ℤ) := by
    rw [BitVec.toInt_eq_toNat_cond]; rw [if_pos (by omega)]
  have hs : IntOp.cmpi .slt w 0#32 = 0#1 := by
    unfold IntOp.cmpi
    have hz : (0#32 : BitVec 32).toInt = 0 := by decide
    simp only [BitVec.slt, hint, hz]
    have h0 : ¬ ((w.toNat : ℤ) < 0) := by omega
    simp [h0]
  rw [hs]
  show min (w.toInt.toNat) (n - 1) = w.toNat
  rw [hint, Int.toNat_natCast]; omega

/-- Level `h`'s term: entry (cell, time slice, topic) of a table of `n` cells. -/
def level {n : ℕ} (hn : 0 < n) (p : FVec Ideal ⟨3, ![n, 32, 128]⟩ .f32) (c t : BitVec 32) (k : Fin 128) : EReal :=
  p (ix3 ⟨axisPos n c, axisPos_lt hn c⟩ ⟨axisPos 32 t, axisPos_lt (by decide) t⟩ k)

/-- With both words in range the term is the table at (cell, time slice, topic). -/
theorem level_of_lt {n : ℕ} (hn : 0 < n) (hn' : n ≤ 2 ^ 31) (p : FVec Ideal ⟨3, ![n, 32, 128]⟩ .f32) (c t : BitVec 32)
    (k : Fin 128) (hc : c.toNat < n) (ht : t.toNat < 32) :
    level hn p c t k = p (ix3 ⟨c.toNat, hc⟩ ⟨t.toNat, ht⟩ k) := by
  unfold level
  congr 1
  funext a
  match a with
  | ⟨0, _⟩ => exact Fin.ext (axisPos_of_lt hn' c hc)
  | ⟨1, _⟩ => exact Fin.ext (axisPos_of_lt (by decide) t ht)
  | ⟨2, _⟩ => rfl

/-- The result array: at (b, k) the five levels' terms summed, coarsest level first. -/
def G (p0 : FVec Ideal ⟨3, ![1, 32, 128]⟩ .f32) (p1 : FVec Ideal ⟨3, ![4, 32, 128]⟩ .f32)
    (p2 : FVec Ideal ⟨3, ![16, 32, 128]⟩ .f32) (p3 : FVec Ideal ⟨3, ![64, 32, 128]⟩ .f32)
    (p4 : FVec Ideal ⟨3, ![256, 32, 128]⟩ .f32) (cells : IVec ⟨2, ![5, 500000]⟩ 32) (ts : IVec ⟨1, ![500000]⟩ 32) :
    FVec Ideal ⟨2, ![500000, 128]⟩ .f32 := fun i =>
  level (by decide) p0 (cells (ix2 0 (i 0))) (ts (ix1 (i 0))) (i 1)
    + level (by decide) p1 (cells (ix2 1 (i 0))) (ts (ix1 (i 0))) (i 1)
    + level (by decide) p2 (cells (ix2 2 (i 0))) (ts (ix1 (i 0))) (i 1)
    + level (by decide) p3 (cells (ix2 3 (i 0))) (ts (ix1 (i 0))) (i 1)
    + level (by decide) p4 (cells (ix2 4 (i 0))) (ts (ix1 (i 0))) (i 1)

/-- What a one-hot row against a table of `R` rows picks: the table's row named by the word, or nothing when the
    word names no row. -/
def hit {R : ℕ} (w : BitVec 32) (tab : FVec Ideal ⟨2, ![R, 128]⟩ .bf16) (k : Fin 128) : EReal :=
  if h : w.toNat < R then tab (ix2 ⟨w.toNat, h⟩ k) else 0

end Cert.Spec

end
-- ==== Proof.PreRanges.lean ====
/-
  The precondition read back as ranges, and the column gather of the cell table.

  The precondition is a conjunction of eleven "every element satisfies" tests.  Five say the tables are finite; one
  says every time-slice word lies in [0, 32); five say that row h of the 5 x 100000 cell table lies in [0, 4^h).
  A word in [0, n) as a signed number is below n as an unsigned one, so the claim gives unsigned bounds on every
  time-slice word and on every word of the cell table.

  The cell table is then read by columns (table[:, idx]): a column gather keeps the row, so every gathered word of
  row h is again below 4^h.
-/
import proofs.«429726_j4380866642085_1_alg».proof.Pre_finite_inputs
import proofs.«429726_j4380866642085_1_alg».proof.Proof.Spec
import Idealize.ShloMosaic.Lib.ReduceAll
import Idealize.ShloMosaic.Lib.StableHlo.Predicate
import Idealize.ShloMosaic.Lib.ValueIdx
import Idealize.ShloMosaic.Lib.ValueLayout
import Idealize.ShloMosaic.Lib.Pipeline.Value

noncomputable section

namespace Cert.PreRanges

open Idealize.ShloMosaic Idealize.ShloMosaic.ValueIdx Cert.Pre_finite_inputs

/-- The rank-0 shape has one index. -/
instance : Subsingleton S_.Idx := ⟨fun a b => funext fun d => d.elim0⟩

/-- A word in [0, n) signed is below n unsigned. -/
theorem toNat_lt_of_range (w c : BitVec 32) (n : Nat) (hc : c.toNat = n) (hn : n < 2 ^ 31)
    (h0 : IntOp.cmpi .sge w 0#32 = 1#1) (h1 : IntOp.cmpi .slt w c = 1#1) : w.toNat < n := by
  have hw : w.toNat < 2 ^ 31 := by
    by_contra hge
    unfold IntOp.cmpi at h0
    rw [StableHlo.Predicate.ofBool_eq_one_iff] at h0
    simp only [BitVec.sle, decide_eq_true_eq] at h0
    have hz : (0#32 : BitVec 32).toInt = 0 := by decide
    rw [hz, BitVec.toInt_eq_toNat_cond] at h0
    have := w.isLt
    split at h0 <;> omega
  have h := (StableHlo.Predicate.slt_iff_toNat hw (by omega)).1 h1
  omega

/-- One row of the cell table: when every word of row r, read through the slice and the reshape, passes
    0 <= word < c, every word of the row is below c's value. -/
theorem row_bound (ga : IVec S5x100000 32) (off : Fin 2 → Nat) (hs : S5x100000.Slices off S1x100000) (r : Fin 5)
    (hoff0 : off 0 = r.val) (hoff1 : off 1 = 0) (c : BitVec 32) (n : Nat) (hc : c.toNat = n) (hn : n < 2 ^ 31)
    (hsc : S1x100000.ShapeCasts S100000) (hb : S_.BroadcastsInDim S100000 (![] : Fin 0 → Fin S100000.rank))
    (hr : S100000.ReducesTo [0] S_) (hu : 0 < S_.numel) (init : IVec S_ 1)
    (e : Host.reduce IntOp.andi
        (andi (cmpi .sge (shapeCast S100000 (extractStridedSlice S1x100000 off ga hs) hsc)
                (broadcastInDim S100000 ![] hb (constantI S_ 32 0#32)))
              (cmpi .slt (shapeCast S100000 (extractStridedSlice S1x100000 off ga hs) hsc)
                (broadcastInDim S100000 ![] hb (constantI S_ 32 c))))
        init hr hu ix0 = 1#1) (j : Fin 100000) : (ga (ix2 r j)).toNat < n := by
  have hp := Host.reduce_andi_all _ init hr hu ix0 e (ix1 j)
  have hread : shapeCast S100000 (extractStridedSlice S1x100000 off ga hs) hsc (ix1 j) = ga (ix2 r j) := by
    rw [shapeCast_1a_a_apply]
    refine extractStridedSlice_apply off ga hs _ _ (fun a => ?_)
    match a with
    | ⟨0, _⟩ => show r.val = off 0 + 0; omega
    | ⟨1, _⟩ => show j.val = off 1 + j.val; omega
  have hp' : IntOp.andi (IntOp.cmpi .sge (ga (ix2 r j)) 0#32) (IntOp.cmpi .slt (ga (ix2 r j)) c) = 1#1 := by
    rw [← hread]; exact hp
  obtain ⟨h0, h1⟩ := IntOp.andi_eq_one.1 hp'
  exact toNat_lt_of_range _ c n hc hn h0 h1

/-- The time slices: when every word passes 0 <= word < 32, every word is below 32. -/
theorem ts_bound (ts : IVec S500000 32) (hb : S_.BroadcastsInDim S500000 (![] : Fin 0 → Fin S500000.rank))
    (hr : S500000.ReducesTo [0] S_) (hu : 0 < S_.numel) (init : IVec S_ 1)
    (e : Host.reduce IntOp.andi
        (andi (cmpi .sge ts (broadcastInDim S500000 ![] hb (constantI S_ 32 0#32)))
              (cmpi .slt ts (broadcastInDim S500000 ![] hb (constantI S_ 32 32#32))))
        init hr hu ix0 = 1#1) (j : Fin 500000) : (ts (ix1 j)).toNat < 32 := by
  have hp := Host.reduce_andi_all _ init hr hu ix0 e (ix1 j)
  have hp' : IntOp.andi (IntOp.cmpi .sge (ts (ix1 j)) 0#32) (IntOp.cmpi .slt (ts (ix1 j)) 32#32) = 1#1 := hp
  obtain ⟨h0, h1⟩ := IntOp.andi_eq_one.1 hp'
  exact toNat_lt_of_range _ 32#32 32 (by decide) (by decide) h0 h1

/-- A conjunction of two one-bit arrays that is 1 at an index has both 1 there. -/
theorem and_split {s : Shape} (x y : IVec s 1) (i : s.Idx) (h : andi x y i = 1#1) : x i = 1#1 ∧ y i = 1#1 :=
  IntOp.andi_eq_one.1 h

/-- THE PRECONDITION DECODED: every time-slice word is below 32, and every word of row l of the cell table is
    below 4^l. -/
theorem ranges_of_pre [Cert.Pre_finite_inputs.Facts]
    (a0 : FVec Ideal S1x32x128 .f32) (a1 : FVec Ideal S4x32x128 .f32) (a2 : FVec Ideal S16x32x128 .f32)
    (a3 : FVec Ideal S64x32x128 .f32) (a4 : FVec Ideal S256x32x128 .f32) (ga : IVec S5x100000 32) (loc ts : IVec S500000 32)
    (h : Cert.Pre_finite_inputs.fn (F := Ideal) a0 a1 a2 a3 a4 ga loc ts = fun _ => 1#1) :
    (∀ j : Fin 500000, (ts (ix1 j)).toNat < 32) ∧ (∀ (l : Fin 5) (j : Fin 100000), (ga (ix2 l j)).toNat < 4 ^ l.val) := by
  have e := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4] at e
  obtain ⟨e, g4⟩ := and_split _ _ _ e
  obtain ⟨e, g3⟩ := and_split _ _ _ e
  obtain ⟨e, g2⟩ := and_split _ _ _ e
  obtain ⟨e, g1⟩ := and_split _ _ _ e
  obtain ⟨e, g0⟩ := and_split _ _ _ e
  obtain ⟨e, gt⟩ := and_split _ _ _ e
  refine ⟨fun j => ts_bound ts _ _ _ _ gt j, fun l j => ?_⟩
  fin_cases l
  · exact row_bound ga _ _ 0 rfl rfl 1#32 1 (by decide) (by decide) _ _ _ _ _ g0 j
  · exact row_bound ga _ _ 1 rfl rfl 4#32 4 (by decide) (by decide) _ _ _ _ _ g1 j
  · exact row_bound ga _ _ 2 rfl rfl 16#32 16 (by decide) (by decide) _ _ _ _ _ g2 j
  · exact row_bound ga _ _ 3 rfl rfl 64#32 64 (by decide) (by decide) _ _ _ _ _ g3 j
  · exact row_bound ga _ _ 4 rfl rfl 256#32 256 (by decide) (by decide) _ _ _ _ _ g4 j

/-- A column gather, table[:, idx], keeps the row: on axis 0 the operand index is the result index's row. -/
theorem gather_row {w : Nat} (d : GatherDims ⟨2, ![5, 100000]⟩ ⟨2, ![500000, 1]⟩ ⟨2, ![5, 500000]⟩)
    (ho : d.offsetDims = [0]) (hc : d.collapsedSliceDims = [1]) (hb : d.operandBatchingDims = []) (hm : d.startIndexMap = [1])
    (idx : IVec ⟨2, ![500000, 1]⟩ w) (j : (⟨2, ![5, 500000]⟩ : Shape).Idx) : ((d.operandIdx j idx) 0).val = (j 0).val := by
  show d.start j idx 0 + d.batchCoord j 0 + d.offCoord j 0 = (j 0).val
  -- axis 0 is not in the start index map: the slice starts at 0 there
  have h1 : d.start j idx 0 = 0 := by
    unfold GatherDims.start
    rw [dif_neg (by rw [hm]; decide)]
  -- there are no batching axes
  have h2 : d.batchCoord j 0 = 0 := d.batchCoord_eq_zero j 0 (by rw [hb]; exact List.not_mem_nil)
  -- axis 0 is the operand's one kept axis, and the result's one offset axis is axis 0
  have hk : d.sKept = [0] := by
    show Shape.kept _ (d.collapsedSliceDims ++ d.operandBatchingDims) = [0]
    rw [hc, hb]; decide
  have h3 : d.offCoord j 0 = (j 0).val := by
    unfold GatherDims.offCoord
    rw [dif_pos (by rw [hk]; exact List.mem_singleton.2 rfl)]
    have key : ∀ (L : List (Fin (⟨2, ![5, 500000]⟩ : Shape).rank)) (i : Nat) (hi : i < L.length), L = [0] → L[i] = 0 := by
      intro L i hi hL
      subst hL
      have hi0 : i = 0 := by simpa using hi
      subst hi0
      rfl
    rw [key _ _ _ ho]
  rw [h1, h2, h3]; omega

/-- Every word a column gather reads from row l of a table whose row l lies below 4^l is below 4^l. -/
theorem cells_lt {w : Nat} (d : GatherDims ⟨2, ![5, 100000]⟩ ⟨2, ![500000, 1]⟩ ⟨2, ![5, 500000]⟩)
    (ho : d.offsetDims = [0]) (hc : d.collapsedSliceDims = [1]) (hb : d.operandBatchingDims = []) (hm : d.startIndexMap = [1])
    (ga : IVec ⟨2, ![5, 100000]⟩ 32) (hga : ∀ (l : Fin 5) (j : Fin 100000), (ga (ix2 l j)).toNat < 4 ^ l.val)
    (idx : IVec ⟨2, ![500000, 1]⟩ w) (l : Fin 5) (b : Fin 500000) : (Host.gather d ga idx (ix2 l b)).toNat < 4 ^ l.val := by
  show (ga (d.operandIdx (ix2 l b) idx)).toNat < 4 ^ l.val
  have hrow := gather_row d ho hc hb hm idx (ix2 l b)
  rw [eq_ix2 (d.operandIdx (ix2 l b) idx)]
  have hl : (d.operandIdx (ix2 l b) idx) 0 = l := Fin.ext hrow
  rw [hl]
  exact hga l _

end Cert.PreRanges

end
-- ==== Proof.RefSide.lean ====
/-
  The reference program computes the specification's array.

  The reference reads, for each of the five pyramid levels, the level's table by a gather at a pair of index words
  (cell word, time word) per query, and sums the five results. A gather with a two-word start index into a table
  [n, 32, 128], collapsing the first two axes and keeping the third as the offset axis, reads at (b, k) the table at
  (word 0 of row b clamped into [0, n-1], word 1 of row b clamped into [0, 31], k). The pair of words is a
  concatenation of two one-column arrays. Before the gather each word is wrapped: a negative word has the axis's
  extent added. Wrap followed by clamp is the specification's position of a word on an axis.
-/
import proofs.«429726_j4380866642085_1_alg».proof.Proof.Spec
import proofs.«429726_j4380866642085_1_alg».proof.Proof.Gen.ReferenceIdeal.Read
import Idealize.ShloMosaic.Lib.ValueIdx
import Idealize.ShloMosaic.Lib.Pipeline.Value
import Idealize.ShloMosaic.PureOps.Ideal

noncomputable section

namespace Cert.RefSide

open Cert.ReferenceIdeal Cert.ReferenceIdeal.Gen Cert.ReferenceIdeal.Read Idealize.ShloMosaic Idealize.ShloMosaic.ValueIdx

/-! ## A gather at a pair of index words -/

section PairGather
variable {α : Type}

/-- The dimension numbers of a gather from a table [n, 32, 128] at start indices [500000, 2] to a result
    [500000, 128]: the two words of a row address the table's first two axes, both collapsed, and the result's
    second axis runs along the table's third. -/
abbrev pairDims (n : Nat)
    (wf : GatherDims.WF ⟨3, ![n, 32, 128]⟩ ⟨2, ![500000, 2]⟩ ⟨2, ![500000, 128]⟩ [1] [0, 1] [] [0, 1] [] 1 ![1, 1, 128]) :
    GatherDims ⟨3, ![n, 32, 128]⟩ ⟨2, ![500000, 2]⟩ ⟨2, ![500000, 128]⟩ where
  offsetDims := [1]
  collapsedSliceDims := [0, 1]
  operandBatchingDims := []
  startIndicesBatchingDims := []
  startIndexMap := [0, 1]
  indexVectorDim := 1
  sliceSizes := ![1, 1, 128]
  wf := wf

private theorem mem0 : (0 : Fin 3) ∈ ([0, 1] : List (Fin 3)) := by decide
private theorem mem1 : (1 : Fin 3) ∈ ([0, 1] : List (Fin 3)) := by decide
private theorem mem2 : (2 : Fin 3) ∉ ([0, 1] : List (Fin 3)) := by decide

/-- The gather read at (b, k): the table at (word 0 of row b, word 1 of row b, k), each word read signed and
    clamped into its axis. -/
theorem gather_pair_apply {n w : Nat} (hn : 0 < n)
    (wf : GatherDims.WF ⟨3, ![n, 32, 128]⟩ ⟨2, ![500000, 2]⟩ ⟨2, ![500000, 128]⟩ [1] [0, 1] [] [0, 1] [] 1 ![1, 1, 128])
    (x : (⟨3, ![n, 32, 128]⟩ : Shape).Idx → α) (idx : IVec ⟨2, ![500000, 2]⟩ w) (b : Fin 500000) (k : Fin 128) :
    Host.gather (pairDims n wf) x idx (ix2 b k)
      = x (ix3 ⟨min (idx (ix2 b 0)).toInt.toNat (n - 1), by omega⟩
            ⟨min (idx (ix2 b 1)).toInt.toNat 31, by omega⟩ k) := by
  unfold Host.gather
  congr 1
  funext a
  refine Fin.ext ?_
  match a with
  | ⟨0, _⟩ =>
    show (pairDims n wf).start (ix2 b k) idx 0 + (pairDims n wf).batchCoord (ix2 b k) 0
      + (pairDims n wf).offCoord (ix2 b k) 0 = _
    rw [GatherDims.batchCoord_eq_zero _ _ _ List.not_mem_nil,
      GatherDims.offCoord_eq_zero _ _ _ (fun h => ((GatherDims.mem_sKept _ _).mp h).1 mem0)]
    simp only [Nat.add_zero]
    unfold GatherDims.start
    rw [dif_pos (show (0 : Fin 3) ∈ (pairDims n wf).startIndexMap from mem0)]
    have hsi : (pairDims n wf).siIdx (ix2 b k) ⟨List.idxOf (0 : Fin 3) (pairDims n wf).startIndexMap,
        List.idxOf_lt_length_iff.2 mem0⟩ = ix2 b 0 := by
      funext c; refine Fin.ext ?_
      match c with
      | ⟨0, _⟩ => rfl
      | ⟨1, _⟩ => rfl
    rw [hsi]
    rfl
  | ⟨1, _⟩ =>
    show (pairDims n wf).start (ix2 b k) idx 1 + (pairDims n wf).batchCoord (ix2 b k) 1
      + (pairDims n wf).offCoord (ix2 b k) 1 = _
    rw [GatherDims.batchCoord_eq_zero _ _ _ List.not_mem_nil,
      GatherDims.offCoord_eq_zero _ _ _ (fun h => ((GatherDims.mem_sKept _ _).mp h).1 mem1)]
    simp only [Nat.add_zero]
    unfold GatherDims.start
    rw [dif_pos (show (1 : Fin 3) ∈ (pairDims n wf).startIndexMap from mem1)]
    have hsi : (pairDims n wf).siIdx (ix2 b k) ⟨List.idxOf (1 : Fin 3) (pairDims n wf).startIndexMap,
        List.idxOf_lt_length_iff.2 mem1⟩ = ix2 b 1 := by
      funext c; refine Fin.ext ?_
      match c with
      | ⟨0, _⟩ => rfl
      | ⟨1, _⟩ => rfl
    rw [hsi]
    rfl
  | ⟨2, _⟩ =>
    show (pairDims n wf).start (ix2 b k) idx 2 + (pairDims n wf).batchCoord (ix2 b k) 2
      + (pairDims n wf).offCoord (ix2 b k) 2 = k.val
    rw [GatherDims.batchCoord_eq_zero _ _ _ List.not_mem_nil]
    unfold GatherDims.start
    rw [dif_neg (show ¬ (2 : Fin 3) ∈ (pairDims n wf).startIndexMap from mem2)]
    simp only [Nat.add_zero, Nat.zero_add]
    unfold GatherDims.offCoord
    rw [dif_pos ((GatherDims.mem_sKept _ _).mpr ⟨mem2, List.not_mem_nil⟩)]
    rfl

end PairGather

/-! ## Two one-column arrays joined into an array of pairs -/

section Columns
variable {α : Type}

/-- The pair array at (b, 0) is the first column at (b, 0). -/
theorem columns_apply_fst (c₀ c₁ : (⟨2, ![500000, 1]⟩ : Shape).Idx → α)
    (h : Shape.Concatenates [⟨2, ![500000, 1]⟩, ⟨2, ![500000, 1]⟩] ⟨2, ![500000, 2]⟩ 1) (b : Fin 500000) :
    concatenate ⟨2, ![500000, 2]⟩ 1 [⟨⟨2, ![500000, 1]⟩, c₀⟩, ⟨⟨2, ![500000, 1]⟩, c₁⟩] h (ix2 b 0) = c₀ (ix2 b 0) :=
  concatenate_pair_apply_left 1 c₀ c₁ h (ix2 b 0) rfl (ix2 b 0)
    (fun a => match a with | ⟨0, _⟩ => rfl | ⟨1, _⟩ => rfl)

/-- The pair array at (b, 1) is the second column at (b, 0). -/
theorem columns_apply_snd (c₀ c₁ : (⟨2, ![500000, 1]⟩ : Shape).Idx → α)
    (h : Shape.Concatenates [⟨2, ![500000, 1]⟩, ⟨2, ![500000, 1]⟩] ⟨2, ![500000, 2]⟩ 1) (b : Fin 500000) :
    concatenate ⟨2, ![500000, 2]⟩ 1 [⟨⟨2, ![500000, 1]⟩, c₀⟩, ⟨⟨2, ![500000, 1]⟩, c₁⟩] h (ix2 b 1) = c₁ (ix2 b 0) :=
  concatenate_pair_apply_right 1 c₀ c₁ h (ix2 b 1) rfl rfl (ix2 b 0)
    (fun a => match a with | ⟨0, _⟩ => fun _ => rfl | ⟨1, _⟩ => fun hne => absurd rfl hne)
    rfl

end Columns

/-! ## The index words the reference feeds its gathers -/

/-- A word wrapped onto an axis of extent `n`: a negative word has `n` added. The specification's position of a
    word on the axis is this wrapped word clamped into the axis. -/
abbrev wrap (n : ℕ) (w : BitVec 32) : BitVec 32 :=
  Scalar.select (IntOp.cmpi .slt w 0#32) (IntOp.addi w (BitVec.ofNat 32 n)) w

section Level0
variable (x5 : IVec S5x100000 32) (x6 x7 : IVec S500000 32) (b : Fin 500000)

/-- Level 0's cell column at query b: row 0 of the cells array, wrapped onto an axis of one cell. -/
theorem cell0 : val_main_v19 (F := Ideal) x5 x6 (ix2 b 0) = wrap 1 (val_main_v6 (F := Ideal) x5 x6 (ix2 0 b)) := by
  have hi : idx_main_v7 (idx_main_v8 (idx_main_v19 (ix2 b (0 : Fin 1)))) = ix2 0 b := by
    funext a
    match a with
    | ⟨0, _⟩ => rfl
    | ⟨1, _⟩ => exact Fin.ext (Nat.mod_eq_of_lt b.isLt)
  rw [val_main_v19_apply, val_main_v13_apply, val_main_v10_apply, val_main_v12_apply, val_main_v8_apply,
    val_main_v7_apply, val_main_v9_apply, val_main_v11_apply, val_main_c_1_apply, val_main_c_2_apply, hi]

/-- Level 0's time column at query b: the time word wrapped onto the axis of 32 slices. -/
theorem time0 : val_main_v20 (F := Ideal) x7 (ix2 b 0) = wrap 32 (x7 (ix1 b)) := by
  have hi : idx_main_v20 (ix2 b (0 : Fin 1)) = ix1 b := by
    funext a
    match a with
    | ⟨0, _⟩ => rfl
  rw [val_main_v20_apply, val_main_v18_apply, val_main_v15_apply, val_main_v17_apply, val_main_v14_apply,
    val_main_v16_apply, val_main_c_3_apply, val_main_c_4_apply, hi]

/-- Level 0's gather is the specification's level term. -/
theorem level0 (x0 : FVec Ideal S1x32x128 .f32) (k : Fin 128) :
    val_main_v22 (F := Ideal) x0 x5 x6 x7 (ix2 b k)
      = Cert.Spec.level (by decide) x0 (val_main_v6 (F := Ideal) x5 x6 (ix2 0 b)) (x7 (ix1 b)) k := by
  unfold val_main_v22
  refine (gather_pair_apply (n := 1) (by decide) _ x0 (val_main_v21 (F := Ideal) x5 x6 x7) b k).trans ?_
  unfold val_main_v21
  simp only [columns_apply_fst, columns_apply_snd, cell0, time0]
  rfl

end Level0

section Level1
variable (x5 : IVec S5x100000 32) (x6 x7 : IVec S500000 32) (b : Fin 500000)

/-- Level 1's cell column at query b: row 1 of the cells array, wrapped onto an axis of 4 cells. -/
theorem cell1 : val_main_v35 (F := Ideal) x5 x6 (ix2 b 0) = wrap 4 (val_main_v6 (F := Ideal) x5 x6 (ix2 1 b)) := by
  have hi : idx_main_v23 (idx_main_v24 (idx_main_v35 (ix2 b (0 : Fin 1)))) = ix2 1 b := by
    funext a
    match a with
    | ⟨0, _⟩ => rfl
    | ⟨1, _⟩ => exact Fin.ext (Nat.mod_eq_of_lt b.isLt)
  rw [val_main_v35_apply, val_main_v29_apply, val_main_v26_apply, val_main_v28_apply, val_main_v24_apply,
    val_main_v23_apply, val_main_v25_apply, val_main_v27_apply, val_main_c_5_apply, val_main_c_6_apply, hi]

/-- Level 1's time column at query b. -/
theorem time1 : val_main_v36 (F := Ideal) x7 (ix2 b 0) = wrap 32 (x7 (ix1 b)) := by
  have hi : idx_main_v36 (ix2 b (0 : Fin 1)) = ix1 b := by
    funext a
    match a with
    | ⟨0, _⟩ => rfl
  rw [val_main_v36_apply, val_main_v34_apply, val_main_v31_apply, val_main_v33_apply, val_main_v30_apply,
    val_main_v32_apply, val_main_c_7_apply, val_main_c_8_apply, hi]

/-- Level 1's gather is the specification's level term. -/
theorem level1 (x1 : FVec Ideal S4x32x128 .f32) (k : Fin 128) :
    val_main_v38 (F := Ideal) x1 x5 x6 x7 (ix2 b k)
      = Cert.Spec.level (by decide) x1 (val_main_v6 (F := Ideal) x5 x6 (ix2 1 b)) (x7 (ix1 b)) k := by
  unfold val_main_v38
  refine (gather_pair_apply (n := 4) (by decide) _ x1 (val_main_v37 (F := Ideal) x5 x6 x7) b k).trans ?_
  unfold val_main_v37
  simp only [columns_apply_fst, columns_apply_snd, cell1, time1]
  rfl

end Level1

section Level2
variable (x5 : IVec S5x100000 32) (x6 x7 : IVec S500000 32) (b : Fin 500000)

/-- Level 2's cell column at query b: row 2 of the cells array, wrapped onto an axis of 16 cells. -/
theorem cell2 : val_main_v52 (F := Ideal) x5 x6 (ix2 b 0) = wrap 16 (val_main_v6 (F := Ideal) x5 x6 (ix2 2 b)) := by
  have hi : idx_main_v40 (idx_main_v41 (idx_main_v52 (ix2 b (0 : Fin 1)))) = ix2 2 b := by
    funext a
    match a with
    | ⟨0, _⟩ => rfl
    | ⟨1, _⟩ => exact Fin.ext (Nat.mod_eq_of_lt b.isLt)
  rw [val_main_v52_apply, val_main_v46_apply, val_main_v43_apply, val_main_v45_apply, val_main_v41_apply,
    val_main_v40_apply, val_main_v42_apply, val_main_v44_apply, val_main_c_9_apply, val_main_c_10_apply, hi]

/-- Level 2's time column at query b. -/
theorem time2 : val_main_v53 (F := Ideal) x7 (ix2 b 0) = wrap 32 (x7 (ix1 b)) := by
  have hi : idx_main_v53 (ix2 b (0 : Fin 1)) = ix1 b := by
    funext a
    match a with
    | ⟨0, _⟩ => rfl
  rw [val_main_v53_apply, val_main_v51_apply, val_main_v48_apply, val_main_v50_apply, val_main_v47_apply,
    val_main_v49_apply, val_main_c_11_apply, val_main_c_12_apply, hi]

/-- Level 2's gather is the specification's level term. -/
theorem level2 (x2 : FVec Ideal S16x32x128 .f32) (k : Fin 128) :
    val_main_v55 (F := Ideal) x2 x5 x6 x7 (ix2 b k)
      = Cert.Spec.level (by decide) x2 (val_main_v6 (F := Ideal) x5 x6 (ix2 2 b)) (x7 (ix1 b)) k := by
  unfold val_main_v55
  refine (gather_pair_apply (n := 16) (by decide) _ x2 (val_main_v54 (F := Ideal) x5 x6 x7) b k).trans ?_
  unfold val_main_v54
  simp only [columns_apply_fst, columns_apply_snd, cell2, time2]
  rfl

end Level2

section Level3
variable (x5 : IVec S5x100000 32) (x6 x7 : IVec S500000 32) (b : Fin 500000)

/-- Level 3's cell column at query b: row 3 of the cells array, wrapped onto an axis of 64 cells. -/
theorem cell3 : val_main_v69 (F := Ideal) x5 x6 (ix2 b 0) = wrap 64 (val_main_v6 (F := Ideal) x5 x6 (ix2 3 b)) := by
  have hi : idx_main_v57 (idx_main_v58 (idx_main_v69 (ix2 b (0 : Fin 1)))) = ix2 3 b := by
    funext a
    match a with
    | ⟨0, _⟩ => rfl
    | ⟨1, _⟩ => exact Fin.ext (Nat.mod_eq_of_lt b.isLt)
  rw [val_main_v69_apply, val_main_v63_apply, val_main_v60_apply, val_main_v62_apply, val_main_v58_apply,
    val_main_v57_apply, val_main_v59_apply, val_main_v61_apply, val_main_c_13_apply, val_main_c_14_apply, hi]

/-- Level 3's time column at query b. -/
theorem time3 : val_main_v70 (F := Ideal) x7 (ix2 b 0) = wrap 32 (x7 (ix1 b)) := by
  have hi : idx_main_v70 (ix2 b (0 : Fin 1)) = ix1 b := by
    funext a
    match a with
    | ⟨0, _⟩ => rfl
  rw [val_main_v70_apply, val_main_v68_apply, val_main_v65_apply, val_main_v67_apply, val_main_v64_apply,
    val_main_v66_apply, val_main_c_15_apply, val_main_c_16_apply, hi]

/-- Level 3's gather is the specification's level term. -/
theorem level3 (x3 : FVec Ideal S64x32x128 .f32) (k : Fin 128) :
    val_main_v72 (F := Ideal) x3 x5 x6 x7 (ix2 b k)
      = Cert.Spec.level (by decide) x3 (val_main_v6 (F := Ideal) x5 x6 (ix2 3 b)) (x7 (ix1 b)) k := by
  unfold val_main_v72
  refine (gather_pair_apply (n := 64) (by decide) _ x3 (val_main_v71 (F := Ideal) x5 x6 x7) b k).trans ?_
  unfold val_main_v71
  simp only [columns_apply_fst, columns_apply_snd, cell3, time3]
  rfl

end Level3

section Level4
variable (x5 : IVec S5x100000 32) (x6 x7 : IVec S500000 32) (b : Fin 500000)

/-- Level 4's cell column at query b: row 4 of the cells array, wrapped onto an axis of 256 cells. -/
theorem cell4 : val_main_v86 (F := Ideal) x5 x6 (ix2 b 0) = wrap 256 (val_main_v6 (F := Ideal) x5 x6 (ix2 4 b)) := by
  have hi : idx_main_v74 (idx_main_v75 (idx_main_v86 (ix2 b (0 : Fin 1)))) = ix2 4 b := by
    funext a
    match a with
    | ⟨0, _⟩ => rfl
    | ⟨1, _⟩ => exact Fin.ext (Nat.mod_eq_of_lt b.isLt)
  rw [val_main_v86_apply, val_main_v80_apply, val_main_v77_apply, val_main_v79_apply, val_main_v75_apply,
    val_main_v74_apply, val_main_v76_apply, val_main_v78_apply, val_main_c_17_apply, val_main_c_18_apply, hi]

/-- Level 4's time column at query b. -/
theorem time4 : val_main_v87 (F := Ideal) x7 (ix2 b 0) = wrap 32 (x7 (ix1 b)) := by
  have hi : idx_main_v87 (ix2 b (0 : Fin 1)) = ix1 b := by
    funext a
    match a with
    | ⟨0, _⟩ => rfl
  rw [val_main_v87_apply, val_main_v85_apply, val_main_v82_apply, val_main_v84_apply, val_main_v81_apply,
    val_main_v83_apply, val_main_c_19_apply, val_main_c_20_apply, hi]

/-- Level 4's gather is the specification's level term. -/
theorem level4 (x4 : FVec Ideal S256x32x128 .f32) (k : Fin 128) :
    val_main_v89 (F := Ideal) x4 x5 x6 x7 (ix2 b k)
      = Cert.Spec.level (by decide) x4 (val_main_v6 (F := Ideal) x5 x6 (ix2 4 b)) (x7 (ix1 b)) k := by
  unfold val_main_v89
  refine (gather_pair_apply (n := 256) (by decide) _ x4 (val_main_v88 (F := Ideal) x5 x6 x7) b k).trans ?_
  unfold val_main_v88
  simp only [columns_apply_fst, columns_apply_snd, cell4, time4]
  rfl

end Level4

/-! ## The reference's result -/

/-- The reference's result is the specification's array: at (b, k) the five levels' terms summed, coarsest first. -/
theorem ref_is_G (x0 : FVec Ideal S1x32x128 .f32) (x1 : FVec Ideal S4x32x128 .f32) (x2 : FVec Ideal S16x32x128 .f32)
    (x3 : FVec Ideal S64x32x128 .f32) (x4 : FVec Ideal S256x32x128 .f32) (x5 : IVec S5x100000 32)
    (x6 x7 : IVec S500000 32) :
    val_main_v90 (F := Ideal) x0 x1 x2 x3 x4 x5 x6 x7
      = Cert.Spec.G x0 x1 x2 x3 x4 (val_main_v6 (F := Ideal) x5 x6) x7 := by
  funext (i : (⟨2, ![500000, 128]⟩ : Shape).Idx)
  obtain ⟨b, k, rfl⟩ : ∃ (b : Fin 500000) (k : Fin 128), i = ix2 b k := ⟨i 0, i 1, eq_ix2 i⟩
  rw [val_main_v90_apply, val_main_v73_apply, val_main_v56_apply, val_main_v39_apply, level0, level1, level2, level3,
    level4]
  rfl

end Cert.RefSide

end
-- ==== Proof.HostArrays.lean ====
/-
  The arrays the kernel's one pallas_call is launched on, as functions of @main's arguments.

  The host side of the kernel resolves each query's cell at every level (one gather of grid_assignments's columns at
  the queries' locations: the cells array), folds (cell, time slice) into one row number  cell * 32 + time slice  per
  level, pads the 500000 row numbers with 224 zeros to a multiple of the 512-query tile and lays them out as a
  column, and flattens each level's [n, 32, 128] table to [n * 32, 128].  Read at an index: the row number of query
  b is the word  cells[h, b] * 32 + t[b], and row  c * 32 + t  of the flattened table is entry (c, t) of the table.
-/
import proofs.«429726_j4380866642085_1_alg».proof.Proof.Spec
import proofs.«429726_j4380866642085_1_alg».proof.Proof.Gen.KernelIdeal.Frame
import Idealize.ShloMosaic.Lib.Pipeline.Value
import Idealize.ShloMosaic.Lib.KernelVsHost
import Idealize.ShloMosaic.Lib.ValueIdx
import Idealize.ShloMosaic.PureOps.Ideal

set_option maxRecDepth 16384

noncomputable section

namespace Cert.KernelSide

open Cert.KernelIdeal Cert.KernelIdeal.Facts₀ Idealize.ShloMosaic Idealize.ShloMosaic.ValueIdx

/-- The cells array: column `loc[b]` of grid_assignments for every query b (a negative location counted from the
    end, as jnp's indexing does). -/
def cellsK (ga : IVec S5x100000 32) (loc : IVec S500000 32) : IVec S5x500000 32 :=
  Host.gather gather_S5x100000_S500000x1_S5x500000_0_1_n_n_1_1_51 ga
    (broadcastInDim S500000x1 ![0] bcast_S500000_S500000x1_0
      (select (cmpi .slt loc (broadcastInDim S500000 ![] bcast_S_S500000 (constantI S_ 32 0#32)))
        (addi loc (broadcastInDim S500000 ![] bcast_S_S500000 (constantI S_ 32 100000#32))) loc))

/-- One level's row numbers as the kernel is handed them: row `o 0` of the cells array times 32 plus the time slices,
    padded with 224 zeros, as a column. -/
def idxArr (o : Fin 2 → Nat) (hs : S5x500000.Slices o S1x500000) (cells : IVec S5x500000 32) (ts : IVec S500000 32) :
    IVec S500224x1 32 :=
  shapeCast S500224x1
    (pad S500224 ![0] ![224] ![0]
      (addi (muli (shapeCast S500000 (extractStridedSlice S1x500000 o cells hs) shapeCasts_S1x500000_S500000)
        (broadcastInDim S500000 ![] bcast_S_S500000 (constantI S_ 32 32#32))) ts)
      (constantI S_ 32 0#32) pads_S500000_S500224_02240 h_S_)
    shapeCasts_S500224_S500224x1

/-- Query b's row number at level l is the word cells[l, b] * 32 + t[b]. -/
theorem idxArr_apply (o : Fin 2 → Nat) (hs : S5x500000.Slices o S1x500000) (l : Fin 5) (hl : o 0 = l.val) (ho : o 1 = 0)
    (cells : IVec S5x500000 32) (ts : IVec S500000 32) (b : Fin 500000) (hb : b.val < 500224) :
    idxArr o hs cells ts (ix2 (⟨b.val, hb⟩ : Fin 500224) (0 : Fin 1))
      = IntOp.addi (IntOp.muli (cells (ix2 l b)) 32#32) (ts (ix1 b)) := by
  unfold idxArr
  rw [shapeCast_apply _ shapeCasts_S500224_S500224x1 _ (ix1 (⟨b.val, hb⟩ : Fin 500224)) (by
    rewrite [Shape.rowMajor_val_one, Shape.rowMajor_val_two]; show b.val = b.val * 1 + 0; omega)]
  rw [pad_apply_of_inside _ _ _ _ _ pads_S500000_S500224_02240 h_S_ _ (ix1 b) (by
    intro a
    have ha : a = 0 := Subsingleton.elim _ _
    subst ha
    show b.val = 0 + b.val * (0 + 1); omega)]
  show IntOp.addi (IntOp.muli (shapeCast S500000 (extractStridedSlice S1x500000 o cells hs) shapeCasts_S1x500000_S500000 (ix1 b))
      (broadcastInDim S500000 ![] bcast_S_S500000 (constantI S_ 32 32#32) (ix1 b))) (ts (ix1 b)) = _
  rw [shapeCast_apply _ shapeCasts_S1x500000_S500000 _ (ix2 (0 : Fin 1) b) (by
      rewrite [Shape.rowMajor_val_two, Shape.rowMajor_val_one]; show 0 * 500000 + b.val = b.val; omega),
    extractStridedSlice_apply o cells hs _ (ix2 l b) (by
      intro a
      match a with
      | ⟨0, _⟩ => show l.val = o 0 + 0; omega
      | ⟨1, _⟩ => show b.val = o 1 + b.val; omega),
    broadcastInDim_apply _ bcast_S_S500000 _ _ ix0 (fun a => a.elim0)]
  rfl

/-- A level's table as the kernel is handed it: the [n, 32, 128] table flattened to [n * 32, 128] (the change of
    float format is the identity on the extended reals). -/
def tabArr {n R : ℕ} (h : (⟨3, ![n, 32, 128]⟩ : Shape).ShapeCasts ⟨2, ![R, 128]⟩) (p : FVec Ideal ⟨3, ![n, 32, 128]⟩ .f32) :
    FVec Ideal ⟨2, ![R, 128]⟩ .bf16 :=
  truncf .bf16 (shapeCast ⟨2, ![R, 128]⟩ p h) bitsLt_bf16_f32

/-- Row c * 32 + t of the flattened table is entry (c, t) of the table. -/
theorem tabArr_apply {n R : ℕ} (h : (⟨3, ![n, 32, 128]⟩ : Shape).ShapeCasts ⟨2, ![R, 128]⟩) (p : FVec Ideal ⟨3, ![n, 32, 128]⟩ .f32)
    (c : Fin n) (t : Fin 32) (k : Fin 128) (hR : c.val * 32 + t.val < R) :
    tabArr h p (ix2 (⟨c.val * 32 + t.val, hR⟩ : Fin R) k) = p (ix3 c t k) := by
  unfold tabArr
  show shapeCast ⟨2, ![R, 128]⟩ p h (ix2 (⟨c.val * 32 + t.val, hR⟩ : Fin R) k) = _
  exact shapeCast_apply p h _ (ix3 c t k) (by
    rewrite [Shape.rowMajor_val_three, Shape.rowMajor_val_two]
    show (c.val * 32 + t.val) * 128 + k.val = (c.val * 32 + t.val) * 128 + k.val
    rfl)

end Cert.KernelSide

end
-- ==== Proof.HostValues.lean ====
/-
  What the region finds in each array it is launched on: the five columns of row numbers and the five flattened
  tables of HostArrays, of @main's arguments as launched (the host operations before the region, composed).
-/
import proofs.«429726_j4380866642085_1_alg».proof.Proof.HostArrays
import Idealize.ShloMosaic.Lib.StableHlo.Run

set_option maxRecDepth 16384

noncomputable section

namespace Cert.KernelSide

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxHeartbeats 4000000 in
theorem V_v13 (c : Dev nD) : (V m c main_v13 : IVec S500224x1 32) = idxArr ![0, 0] Facts₀.slices_S5x500000_S1x500000_0_0 (cellsK (m ((c : Thread nD τ).loc main_arg5)) (m ((c : Thread nD τ).loc main_arg6))) (m ((c : Thread nD τ).loc main_arg7)) := by
  dsimp only [V, V0]
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  rfl

set_option maxHeartbeats 4000000 in
theorem V_v22 (c : Dev nD) : (V m c main_v22 : IVec S500224x1 32) = idxArr ![1, 0] Facts₀.slices_S5x500000_S1x500000_1_0 (cellsK (m ((c : Thread nD τ).loc main_arg5)) (m ((c : Thread nD τ).loc main_arg6))) (m ((c : Thread nD τ).loc main_arg7)) := by
  dsimp only [V, V0]
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  rfl

set_option maxHeartbeats 4000000 in
theorem V_v31 (c : Dev nD) : (V m c main_v31 : IVec S500224x1 32) = idxArr ![2, 0] Facts₀.slices_S5x500000_S1x500000_2_0 (cellsK (m ((c : Thread nD τ).loc main_arg5)) (m ((c : Thread nD τ).loc main_arg6))) (m ((c : Thread nD τ).loc main_arg7)) := by
  dsimp only [V, V0]
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  rfl

set_option maxHeartbeats 4000000 in
theorem V_v40 (c : Dev nD) : (V m c main_v40 : IVec S500224x1 32) = idxArr ![3, 0] Facts₀.slices_S5x500000_S1x500000_3_0 (cellsK (m ((c : Thread nD τ).loc main_arg5)) (m ((c : Thread nD τ).loc main_arg6))) (m ((c : Thread nD τ).loc main_arg7)) := by
  dsimp only [V, V0]
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  rfl

set_option maxHeartbeats 4000000 in
theorem V_v49 (c : Dev nD) : (V m c main_v49 : IVec S500224x1 32) = idxArr ![4, 0] Facts₀.slices_S5x500000_S1x500000_4_0 (cellsK (m ((c : Thread nD τ).loc main_arg5)) (m ((c : Thread nD τ).loc main_arg6))) (m ((c : Thread nD τ).loc main_arg7)) := by
  dsimp only [V, V0]
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  rfl

set_option maxHeartbeats 4000000 in
theorem V_v15 (c : Dev nD) : (V m c main_v15 : FVec Ideal S32x128 .bf16) = tabArr Facts₀.shapeCasts_S1x32x128_S32x128 (m ((c : Thread nD τ).loc main_arg0)) := by
  dsimp only [V, V0]
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  rfl

set_option maxHeartbeats 4000000 in
theorem V_v24 (c : Dev nD) : (V m c main_v24 : FVec Ideal S128x128 .bf16) = tabArr Facts₀.shapeCasts_S4x32x128_S128x128 (m ((c : Thread nD τ).loc main_arg1)) := by
  dsimp only [V, V0]
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  rfl

set_option maxHeartbeats 4000000 in
theorem V_v33 (c : Dev nD) : (V m c main_v33 : FVec Ideal S512x128 .bf16) = tabArr Facts₀.shapeCasts_S16x32x128_S512x128 (m ((c : Thread nD τ).loc main_arg2)) := by
  dsimp only [V, V0]
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  rfl

set_option maxHeartbeats 4000000 in
theorem V_v42 (c : Dev nD) : (V m c main_v42 : FVec Ideal S2048x128 .bf16) = tabArr Facts₀.shapeCasts_S64x32x128_S2048x128 (m ((c : Thread nD τ).loc main_arg3)) := by
  dsimp only [V, V0]
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  rfl

set_option maxHeartbeats 4000000 in
theorem V_v51 (c : Dev nD) : (V m c main_v51 : FVec Ideal S8192x128 .bf16) = tabArr Facts₀.shapeCasts_S256x32x128_S8192x128 (m ((c : Thread nD τ).loc main_arg4)) := by
  dsimp only [V, V0]
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results_simp
  rfl

end Cert.KernelSide

end
-- ==== Proof.BlockValue.lean ====
/-
  The block the kernel's body writes, read at one position.

  For each of the five pyramid levels the body builds a 512 x R matrix whose entry (r, q) is 1 when the r-th index word
  equals q and 0 otherwise, multiplies it with the level's R x 128 table, and adds the five products up.  A row of such
  a matrix has at most one nonzero entry, so its product with the table picks the table's row named by the word, or
  nothing when the word names no row: `Cert.Spec.hit`.
-/
import proofs.«429726_j4380866642085_1_alg».proof.Proof.Spec
import proofs.«429726_j4380866642085_1_alg».proof.Proof.Gen.KernelIdeal.Frame
import Idealize.ShloMosaic.PureOps.Ideal.Laws
import Idealize.ShloMosaic.Lib.ValueIdx
import Idealize.ShloMosaic.Lib.Pipeline.Value
import Idealize.ShloMosaic.Lib.ValueLayout

noncomputable section

namespace Cert.KernelSide

open Cert.KernelIdeal Cert.KernelIdeal.Gen Idealize.ShloMosaic Idealize.ShloMosaic.ValueIdx

/-! ## A sum against an indicator of one word -/

/-- Summing `f q` against the indicator of "the word is `q`" over the positions `q < R` leaves `f` at the word's
    position when the word names one, and nothing otherwise. -/
theorem sum_indicator {R : ℕ} (hR : R ≤ 2 ^ 32) (w : BitVec 32) (f : Fin R → EReal) :
    ∑ q : Fin R, (if w = BitVec.ofNat 32 q.val then (1 : EReal) else 0) * f q
      = if h : w.toNat < R then f ⟨w.toNat, h⟩ else 0 := by
  have hne : ∀ q : Fin R, q.val ≠ w.toNat → ¬ w = BitVec.ofNat 32 q.val := by
    intro q hq he
    apply hq
    have := congrArg BitVec.toNat he
    rw [BitVec.toNat_ofNat, Nat.mod_eq_of_lt (by have := q.isLt; omega)] at this
    exact this.symm
  by_cases h : w.toNat < R
  · rw [dif_pos h, Finset.sum_eq_single (⟨w.toNat, h⟩ : Fin R)]
    · rw [if_pos (by simp), one_mul]
    · intro b _ hb
      rw [if_neg (hne b (fun e => hb (Fin.ext e))), zero_mul]
    · intro hn; exact absurd (Finset.mem_univ _) hn
  · rw [dif_neg h]
    refine Finset.sum_eq_zero fun q _ => ?_
    rw [if_neg (hne q (fun e => h (e ▸ q.isLt))), zero_mul]

/-! ## The one-hot matrix at an entry -/

/-- Entry (r, q) of the matrix the body compares into: the column of words against the row of positions, the equality
    bit widened to a word, read as an integer and as a float. It is 1 where the r-th word is `q` and 0 elsewhere. -/
theorem onehot_apply {R : ℕ} (col : IVec ⟨2, ![512, 1]⟩ 32)
    (hb1 : (⟨2, ![512, 1]⟩ : Shape).Broadcasts ⟨2, ![512, R]⟩) (hb2 : (⟨2, ![1, R]⟩ : Shape).Broadcasts ⟨2, ![512, R]⟩)
    (hi : (⟨2, ![1, R]⟩ : Shape).Iotas .tc 32 [1]) (h1 : 1 < 32) (h2 : FTy.bf16.bits < FTy.f32.bits)
    (r : Fin 512) (q : Fin R) :
    (truncf .bf16 (sitofp (F := Ideal) .f32 (extui 32 (cmpi .eq (broadcastTo ⟨2, ![512, R]⟩ col hb1)
        (broadcastTo ⟨2, ![512, R]⟩ (iota .tc ⟨2, ![1, R]⟩ 32 [1] hi) hb2)) h1)) h2 : FVec Ideal ⟨2, ![512, R]⟩ .bf16) (ix2 r q)
      = if col (ix2 r 0) = BitVec.ofNat 32 q.val then 1 else 0 := by
  have e1 : broadcastTo ⟨2, ![512, R]⟩ col hb1 (ix2 r q) = col (ix2 r 0) := by
    refine broadcastTo_apply col hb1 (ix2 r q) (ix2 r 0) fun a => ?_
    match a with
    | ⟨0, _⟩ => rfl
    | ⟨1, _⟩ => rfl
  have e2 : broadcastTo ⟨2, ![512, R]⟩ (iota .tc ⟨2, ![1, R]⟩ 32 [1] hi) hb2 (ix2 r q) = BitVec.ofNat 32 q.val := by
    refine (broadcastTo_apply _ hb2 (ix2 r q) (ix2 0 q) fun a => ?_).trans (iota_single_apply .tc ⟨2, ![1, R]⟩ 32 1 hi (ix2 0 q))
    match a with
    | ⟨0, _⟩ => rfl
    | ⟨1, _⟩ =>
      show q.val = if R = 1 then 0 else q.val
      split
      · have := q.isLt; omega
      · rfl
  show ((((IntOp.cmpi .eq (broadcastTo ⟨2, ![512, R]⟩ col hb1 (ix2 r q))
      (broadcastTo ⟨2, ![512, R]⟩ (iota .tc ⟨2, ![1, R]⟩ 32 [1] hi) hb2 (ix2 r q))).setWidth 32).toInt : ℝ) : EReal) = _
  rw [e1, e2]
  by_cases h : col (ix2 r 0) = BitVec.ofNat 32 q.val
  · rw [if_pos h, h]
    have : (IntOp.cmpi .eq (BitVec.ofNat 32 q.val) (BitVec.ofNat 32 q.val)) = 1#1 := by simp [IntOp.cmpi]
    rw [this]
    have : ((1#1 : BitVec 1).setWidth 32).toInt = 1 := by decide
    rw [this]; simp
  · rw [if_neg h]
    have : (IntOp.cmpi .eq (col (ix2 r 0)) (BitVec.ofNat 32 q.val)) = 0#1 := by
      show BitVec.ofBool (col (ix2 r 0) == BitVec.ofNat 32 q.val) = 0#1
      rw [beq_eq_false_iff_ne.mpr h]; rfl
    rw [this]
    have : ((0#1 : BitVec 1).setWidth 32).toInt = 0 := by decide
    rw [this]; simp

/-! ## One level: the one-hot matrix times the table -/

/-- The left operand's position for output position `i` and contraction position `q`: row from `i` … -/
theorem plain_lhs_0 {R : ℕ} (i : (⟨2, ![512, 128]⟩ : Shape).Idx) (q : (DotDims.plain 512 R 128).contr.Idx) :
    ((DotDims.plain 512 R 128).lhsIdx i q 0).val = (i 0).val := rfl
/-- … column the contraction position; -/
theorem plain_lhs_1 {R : ℕ} (i : (⟨2, ![512, 128]⟩ : Shape).Idx) (q : (DotDims.plain 512 R 128).contr.Idx) :
    ((DotDims.plain 512 R 128).lhsIdx i q 1).val = (q ⟨0, Nat.one_pos⟩).val :=
  (DotDims.plain 512 R 128).lhsIdx_val_of_single rfl i q
/-- the right operand's: row the contraction position … -/
theorem plain_rhs_0 {R : ℕ} (i : (⟨2, ![512, 128]⟩ : Shape).Idx) (q : (DotDims.plain 512 R 128).contr.Idx) :
    ((DotDims.plain 512 R 128).rhsIdx i q 0).val = (q ⟨0, Nat.one_pos⟩).val :=
  (DotDims.plain 512 R 128).rhsIdx_val_of_single rfl i q
/-- … column from `i`. -/
theorem plain_rhs_1 {R : ℕ} (i : (⟨2, ![512, 128]⟩ : Shape).Idx) (q : (DotDims.plain 512 R 128).contr.Idx) :
    ((DotDims.plain 512 R 128).rhsIdx i q 1).val = (i 1).val := rfl

/-- Dimension numbers "rows by contraction times contraction by columns, no batch axis" are the plain ones. -/
theorem dims_eq_plain {R : ℕ} (D : DotDims ⟨2, ![512, R]⟩ ⟨2, ![R, 128]⟩ ⟨2, ![512, 128]⟩)
    (c1 : D.lhsContracting = [1]) (c2 : D.rhsContracting = [0]) (c3 : D.lhsNonContracting = [0])
    (c4 : D.rhsNonContracting = [1]) (c5 : D.lhsBatch = []) (c6 : D.rhsBatch = []) : D = DotDims.plain 512 R 128 := by
  cases D
  simp only at c1 c2 c3 c4 c5 c6
  subst c1 c2 c3 c4 c5 c6
  rfl

/-- A matrix product into the zero block, read at (r, k): the sum over the contraction position `q` of the left
    operand at (r, q) times the right at (q, k). -/
theorem matmul_plain_apply {R : ℕ} (D : DotDims ⟨2, ![512, R]⟩ ⟨2, ![R, 128]⟩ ⟨2, ![512, 128]⟩)
    (c1 : D.lhsContracting = [1]) (c2 : D.rhsContracting = [0]) (c3 : D.lhsNonContracting = [0])
    (c4 : D.rhsNonContracting = [1]) (c5 : D.lhsBatch = []) (c6 : D.rhsBatch = [])
    (A : FVec Ideal ⟨2, ![512, R]⟩ .bf16) (B : FVec Ideal ⟨2, ![R, 128]⟩ .bf16) (r : Fin 512) (k : Fin 128) :
    matmul D none A B (constant (F := Ideal) ⟨2, ![512, 128]⟩ .f32 0x00000000#32) (ix2 r k)
      = ∑ q : Fin R, A (ix2 r q) * B (ix2 q k) := by
  obtain rfl := dims_eq_plain D c1 c2 c3 c4 c5 c6
  show FloatOps.matmul (DotDims.plain 512 R 128) none A B (constant (F := Ideal) ⟨2, ![512, 128]⟩ .f32 0x00000000#32) (ix2 r k) = _
  rw [Ideal.matmul_constant_zero_apply, ← Equiv.sum_comp (contrEquiv1 (DotDims.plain 512 R 128) R rfl rfl).symm]
  refine Finset.sum_congr rfl fun q _ => ?_
  have hq := contrEquiv1_symm_val (DotDims.plain 512 R 128) R rfl rfl q
  have el : (DotDims.plain 512 R 128).lhsIdx (ix2 r k) ((contrEquiv1 (DotDims.plain 512 R 128) R rfl rfl).symm q) = ix2 r q :=
    funext fun a => Fin.ext (by
      match a with
      | ⟨0, _⟩ => exact plain_lhs_0 _ _
      | ⟨1, _⟩ => exact (plain_lhs_1 _ _).trans hq)
  have er : (DotDims.plain 512 R 128).rhsIdx (ix2 r k) ((contrEquiv1 (DotDims.plain 512 R 128) R rfl rfl).symm q) = ix2 q k :=
    funext fun a => Fin.ext (by
      match a with
      | ⟨0, _⟩ => exact (plain_rhs_0 _ _).trans hq
      | ⟨1, _⟩ => exact plain_rhs_1 _ _)
  rw [el, er]

/-- ONE LEVEL. The one-hot matrix of a column of words against the positions below `R`, times a table of `R` rows into
    the zero block, read at (r, k): the table's row named by the r-th word at `k`, or 0 when the word names no row. -/
theorem level_apply {R : ℕ} (hR : R ≤ 2 ^ 32) (D : DotDims ⟨2, ![512, R]⟩ ⟨2, ![R, 128]⟩ ⟨2, ![512, 128]⟩)
    (c1 : D.lhsContracting = [1]) (c2 : D.rhsContracting = [0]) (c3 : D.lhsNonContracting = [0])
    (c4 : D.rhsNonContracting = [1]) (c5 : D.lhsBatch = []) (c6 : D.rhsBatch = [])
    (col : IVec ⟨2, ![512, 1]⟩ 32)
    (hb1 : (⟨2, ![512, 1]⟩ : Shape).Broadcasts ⟨2, ![512, R]⟩) (hb2 : (⟨2, ![1, R]⟩ : Shape).Broadcasts ⟨2, ![512, R]⟩)
    (hi : (⟨2, ![1, R]⟩ : Shape).Iotas .tc 32 [1]) (h1 : 1 < 32) (h2 : FTy.bf16.bits < FTy.f32.bits)
    (tab : FVec Ideal ⟨2, ![R, 128]⟩ .bf16) (r : Fin 512) (k : Fin 128) :
    matmul D none (truncf .bf16 (sitofp (F := Ideal) .f32 (extui 32 (cmpi .eq (broadcastTo ⟨2, ![512, R]⟩ col hb1)
        (broadcastTo ⟨2, ![512, R]⟩ (iota .tc ⟨2, ![1, R]⟩ 32 [1] hi) hb2)) h1)) h2) tab
      (constant (F := Ideal) ⟨2, ![512, 128]⟩ .f32 0x00000000#32) (ix2 r k) = Cert.Spec.hit (col (ix2 r 0)) tab k := by
  rw [matmul_plain_apply D c1 c2 c3 c4 c5 c6]
  unfold Cert.Spec.hit
  refine (Finset.sum_congr rfl fun q _ => ?_).trans (sum_indicator hR (col (ix2 r 0)) (fun q => tab (ix2 q k)))
  rw [onehot_apply col hb1 hb2 hi h1 h2 r q]

/-! ## The body's block -/

/-- THE BLOCK AT (r, k): the zero block plus, level by level, the level's table row named by the r-th word of the
    level's column of words, at `k`. -/
theorem out_block_apply (x0 x1 x2 x3 x4 : Vec Ideal S512x1 .i32) (x5 : Vec Ideal S32x128 .bf16) (x6 : Vec Ideal S128x128 .bf16)
    (x7 : Vec Ideal S512x128 .bf16) (x8 : Vec Ideal S2048x128 .bf16) (x9 : Vec Ideal S8192x128 .bf16) (r : Fin 512) (k : Fin 128) :
    out0_10 (F := Ideal) x0 x1 x2 x3 x4 x5 x6 x7 x8 x9 (ix2 r k)
      = 0 + Cert.Spec.hit (x0 (ix2 r 0)) x5 k + Cert.Spec.hit (x1 (ix2 r 0)) x6 k + Cert.Spec.hit (x2 (ix2 r 0)) x7 k
          + Cert.Spec.hit (x3 (ix2 r 0)) x8 k + Cert.Spec.hit (x4 (ix2 r 0)) x9 k := by
  have hz : (![0, 0] : Fin 2 → ℕ) = fun _ => 0 := by
    funext a
    match a with
    | ⟨0, _⟩ => rfl
    | ⟨1, _⟩ => rfl
  unfold out0_10
  rw [View.canon_unit_zero hz]
  simp only [View.ld_unit_zero (S := S512x1) hz, View.ld_unit_zero (S := S32x128) hz, View.ld_unit_zero (S := S128x128) hz,
    View.ld_unit_zero (S := S512x128) hz, View.ld_unit_zero (S := S2048x128) hz, View.ld_unit_zero (S := S8192x128) hz]
  unfold k0_pay1 k0_pay2
  simp only [shapeCast_self]
  rw [addf_apply, addf_apply, addf_apply, addf_apply, addf_apply, broadcast_apply]
  rw [level_apply (R := 32) (by norm_num) dot_S512x32_S32x128_S512x128_1_0_0_1_n_n rfl rfl rfl rfl rfl rfl x0,
    level_apply (R := 128) (by norm_num) dot_S512x128_S128x128_S512x128_1_0_0_1_n_n rfl rfl rfl rfl rfl rfl x1,
    level_apply (R := 512) (by norm_num) dot_S512x512_S512x128_S512x128_1_0_0_1_n_n rfl rfl rfl rfl rfl rfl x2,
    level_apply (R := 2048) (by norm_num) dot_S512x2048_S2048x128_S512x128_1_0_0_1_n_n rfl rfl rfl rfl rfl rfl x3,
    level_apply (R := 8192) (by norm_num) dot_S512x8192_S8192x128_S512x128_1_0_0_1_n_n rfl rfl rfl rfl rfl rfl x4]
  show Ideal.ofBits .f32 0x00000000#32 + _ + _ + _ + _ + _ = _
  rw [Ideal.ofBits_zero_f32]

end Cert.KernelSide

end
-- ==== Proof.BlockToArray.lean ====
/-
  From the blocks to the array.  The pallas_call's grid has 977 points; point t stages rows 512 t .. 512 t + 511 of
  each level's column of row numbers, the five flattened tables whole, and writes back rows 512 t .. 512 t + 511 of
  the [500224, 128] output.  So the output array after the region is one function of the launched arrays, row by
  row: at (B, k) the five levels' one-hot picks, added in order to zero.
-/
import proofs.«429726_j4380866642085_1_alg».proof.Proof.Spec
import proofs.«429726_j4380866642085_1_alg».proof.Proof.BlockValue
import proofs.«429726_j4380866642085_1_alg».proof.Proof.Gen.KernelIdeal.Frame
import Idealize.ShloMosaic.Lib.Pipeline.Value
import Idealize.ShloMosaic.Lib.ValueIdx
import Idealize.ShloMosaic.PureOps.Ideal

set_option maxRecDepth 16384

noncomputable section

namespace Cert.KernelSide

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The region's output array from the arrays it is launched on: row B holds, for each level, the row of the level's
    table that the level's B-th row number names (nothing when it names none), added in order to zero. -/
def regionOut (i0 i1 i2 i3 i4 : IVec S500224x1 32) (t0 : FVec Ideal S32x128 .bf16) (t1 : FVec Ideal S128x128 .bf16)
    (t2 : FVec Ideal S512x128 .bf16) (t3 : FVec Ideal S2048x128 .bf16) (t4 : FVec Ideal S8192x128 .bf16) :
    FVec Ideal S500224x128 .f32 := fun i =>
  0 + Cert.Spec.hit (i0 (ix2 (i 0) (0 : Fin 1))) t0 (i 1) + Cert.Spec.hit (i1 (ix2 (i 0) (0 : Fin 1))) t1 (i 1)
    + Cert.Spec.hit (i2 (ix2 (i 0) (0 : Fin 1))) t2 (i 1) + Cert.Spec.hit (i3 (ix2 (i 0) (0 : Fin 1))) t3 (i 1)
    + Cert.Spec.hit (i4 (ix2 (i 0) (0 : Fin 1))) t4 (i 1)

/-- The printed index maps over the grid: the row-number columns and the output move one block of 512 rows per point,
    the tables stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

/-- A block of 512 x 128 whose five columns of row numbers are rows 512 T .. of the arrays' columns is rows 512 T ..
    of `regionOut`. -/
theorem block_rows (i0 i1 i2 i3 i4 : IVec S500224x1 32) (t0 : FVec Ideal S32x128 .bf16) (t1 : FVec Ideal S128x128 .bf16)
    (t2 : FVec Ideal S512x128 .bf16) (t3 : FVec Ideal S2048x128 .bf16) (t4 : FVec Ideal S8192x128 .bf16)
    (x0 x1 x2 x3 x4 : Vec Ideal S512x1 .i32) (r : Fin 512) (k : Fin 128) (B : Fin 500224)
    (e0 : x0 (ix2 r 0) = i0 (ix2 B 0)) (e1 : x1 (ix2 r 0) = i1 (ix2 B 0)) (e2 : x2 (ix2 r 0) = i2 (ix2 B 0))
    (e3 : x3 (ix2 r 0) = i3 (ix2 B 0)) (e4 : x4 (ix2 r 0) = i4 (ix2 B 0)) :
    out0_10 (F := Ideal) x0 x1 x2 x3 x4 t0 t1 t2 t3 t4 (ix2 r k) = regionOut i0 i1 i2 i3 i4 t0 t1 t2 t3 t4 (ix2 B k) := by
  rw [out_block_apply, e0, e1, e2, e3, e4]
  rfl

set_option maxHeartbeats 4000000 in
/-- The five tables' blocks are the whole tables at every point. -/
theorem tab_block (c : Dev nD) (t : Fin cfg0.N) :
    iblk m c 5 t = V m c main_v15 ∧ iblk m c 6 t = V m c main_v24 ∧ iblk m c 7 t = V m c main_v33
      ∧ iblk m c 8 t = V m c main_v42 ∧ iblk m c 9 t = V m c main_v51 := by
  obtain ⟨-, -, -, -, -, -, -, -, -, -, a0, a1, b0, b1, c0, c1, d0, d1, e0, e1, -, -⟩ := idx_facts t
  refine ⟨?_, ?_, ?_, ?_, ?_⟩
  · funext y
    show V m c main_v15 (((cfg0.win 5).blk t).view.emb y) = V m c main_v15 y
    refine congrArg _ (funext fun a => Fin.ext ?_)
    match a with
    | ⟨0, _⟩ => show win0_5.index t (0 : Fin 2) * 32 + 1 * (y 0).val = (y 0).val; omega
    | ⟨1, _⟩ => show win0_5.index t (1 : Fin 2) * 128 + 1 * (y 1).val = (y 1).val; omega
  · funext y
    show V m c main_v24 (((cfg0.win 6).blk t).view.emb y) = V m c main_v24 y
    refine congrArg _ (funext fun a => Fin.ext ?_)
    match a with
    | ⟨0, _⟩ => show win0_6.index t (0 : Fin 2) * 128 + 1 * (y 0).val = (y 0).val; omega
    | ⟨1, _⟩ => show win0_6.index t (1 : Fin 2) * 128 + 1 * (y 1).val = (y 1).val; omega
  · funext y
    show V m c main_v33 (((cfg0.win 7).blk t).view.emb y) = V m c main_v33 y
    refine congrArg _ (funext fun a => Fin.ext ?_)
    match a with
    | ⟨0, _⟩ => show win0_7.index t (0 : Fin 2) * 512 + 1 * (y 0).val = (y 0).val; omega
    | ⟨1, _⟩ => show win0_7.index t (1 : Fin 2) * 128 + 1 * (y 1).val = (y 1).val; omega
  · funext y
    show V m c main_v42 (((cfg0.win 8).blk t).view.emb y) = V m c main_v42 y
    refine congrArg _ (funext fun a => Fin.ext ?_)
    match a with
    | ⟨0, _⟩ => show win0_8.index t (0 : Fin 2) * 2048 + 1 * (y 0).val = (y 0).val; omega
    | ⟨1, _⟩ => show win0_8.index t (1 : Fin 2) * 128 + 1 * (y 1).val = (y 1).val; omega
  · funext y
    show V m c main_v51 (((cfg0.win 9).blk t).view.emb y) = V m c main_v51 y
    refine congrArg _ (funext fun a => Fin.ext ?_)
    match a with
    | ⟨0, _⟩ => show win0_9.index t (0 : Fin 2) * 8192 + 1 * (y 0).val = (y 0).val; omega
    | ⟨1, _⟩ => show win0_9.index t (1 : Fin 2) * 128 + 1 * (y 1).val = (y 1).val; omega

set_option maxHeartbeats 4000000 in
/-- Row r of point t's block of a row-number column is row 512 t + r of the column. -/
theorem col_block (c : Dev nD) (t : Fin cfg0.N) (r : Fin 512) (B : Fin 500224) (hB : B.val = t.val * 512 + r.val) :
    iblk m c 0 t (ix2 r (0 : Fin 1)) = V m c main_v13 (ix2 B (0 : Fin 1))
    ∧ iblk m c 1 t (ix2 r (0 : Fin 1)) = V m c main_v22 (ix2 B (0 : Fin 1))
    ∧ iblk m c 2 t (ix2 r (0 : Fin 1)) = V m c main_v31 (ix2 B (0 : Fin 1))
    ∧ iblk m c 3 t (ix2 r (0 : Fin 1)) = V m c main_v40 (ix2 B (0 : Fin 1))
    ∧ iblk m c 4 t (ix2 r (0 : Fin 1)) = V m c main_v49 (ix2 B (0 : Fin 1)) := by
  obtain ⟨a0, a1, b0, b1, c0, c1, d0, d1, e0, e1, -⟩ := idx_facts t
  refine ⟨?_, ?_, ?_, ?_, ?_⟩
  · show V m c main_v13 (((cfg0.win 0).blk t).view.emb (ix2 r (0 : Fin 1))) = _
    refine congrArg _ (funext fun a => Fin.ext ?_)
    match a with
    | ⟨0, _⟩ => show win0_0.index t (0 : Fin 2) * 512 + 1 * r.val = B.val; omega
    | ⟨1, _⟩ => show win0_0.index t (1 : Fin 2) * 1 + 1 * 0 = 0; omega
  · show V m c main_v22 (((cfg0.win 1).blk t).view.emb (ix2 r (0 : Fin 1))) = _
    refine congrArg _ (funext fun a => Fin.ext ?_)
    match a with
    | ⟨0, _⟩ => show win0_1.index t (0 : Fin 2) * 512 + 1 * r.val = B.val; omega
    | ⟨1, _⟩ => show win0_1.index t (1 : Fin 2) * 1 + 1 * 0 = 0; omega
  · show V m c main_v31 (((cfg0.win 2).blk t).view.emb (ix2 r (0 : Fin 1))) = _
    refine congrArg _ (funext fun a => Fin.ext ?_)
    match a with
    | ⟨0, _⟩ => show win0_2.index t (0 : Fin 2) * 512 + 1 * r.val = B.val; omega
    | ⟨1, _⟩ => show win0_2.index t (1 : Fin 2) * 1 + 1 * 0 = 0; omega
  · show V m c main_v40 (((cfg0.win 3).blk t).view.emb (ix2 r (0 : Fin 1))) = _
    refine congrArg _ (funext fun a => Fin.ext ?_)
    match a with
    | ⟨0, _⟩ => show win0_3.index t (0 : Fin 2) * 512 + 1 * r.val = B.val; omega
    | ⟨1, _⟩ => show win0_3.index t (1 : Fin 2) * 1 + 1 * 0 = 0; omega
  · show V m c main_v49 (((cfg0.win 4).blk t).view.emb (ix2 r (0 : Fin 1))) = _
    refine congrArg _ (funext fun a => Fin.ext ?_)
    match a with
    | ⟨0, _⟩ => show win0_4.index t (0 : Fin 2) * 512 + 1 * r.val = B.val; omega
    | ⟨1, _⟩ => show win0_4.index t (1 : Fin 2) * 1 + 1 * 0 = 0; omega

set_option maxHeartbeats 4000000 in
/-- What point t writes back is block t of `regionOut` of the launched arrays. -/
theorem flushed_eq (c : Dev nD) (t : Fin cfg0.N) :
    (dats m 0 c).flushed 10 t = ((cfg0.win 10).blk t).view.read (Elt Ideal)
      (regionOut (V m c main_v13) (V m c main_v22) (V m c main_v31) (V m c main_v40) (V m c main_v49)
        (V m c main_v15) (V m c main_v24) (V m c main_v33) (V m c main_v42) (V m c main_v51)) := by
  show (cfg0.win 10).cut (grid0.coords t) ((dats m 0 c).after 10 t) = _
  rw [after0_10]
  obtain ⟨h5, h6, h7, h8, h9⟩ := tab_block m c t
  rw [h5, h6, h7, h8, h9]
  funext j
  have ht : t.val < 977 := t.isLt
  have hj0 : (j 0).val < 512 := (j 0).isLt
  obtain ⟨f0, f1⟩ : win0_10.index t (0 : Fin 2) = t.val ∧ win0_10.index t (1 : Fin 2) = 0 := by
    have := idx_facts t
    exact ⟨this.2.2.2.2.2.2.2.2.2.2.2.2.2.2.2.2.2.2.2.2.1, this.2.2.2.2.2.2.2.2.2.2.2.2.2.2.2.2.2.2.2.2.2⟩
  have hj1 : (j 1).val < 128 := (j 1).isLt
  have hB : t.val * 512 + (j 0).val < 500224 := by omega
  obtain ⟨e0, e1, e2, e3, e4⟩ := col_block m c t ⟨(j 0).val, hj0⟩ ⟨t.val * 512 + (j 0).val, hB⟩ rfl
  have hj : j = ix2 (⟨(j 0).val, hj0⟩ : Fin 512) (⟨(j 1).val, hj1⟩ : Fin 128) := by
    funext a
    match a with
    | ⟨0, _⟩ => rfl
    | ⟨1, _⟩ => rfl
  have hemb : ((cfg0.win 10).blk t).view.emb j
      = ix2 (⟨t.val * 512 + (j 0).val, hB⟩ : Fin 500224) (⟨(j 1).val, hj1⟩ : Fin 128) := by
    funext a
    apply Fin.ext
    match a with
    | ⟨0, _⟩ => show win0_10.index t (0 : Fin 2) * 512 + 1 * (j 0).val = t.val * 512 + (j 0).val; omega
    | ⟨1, _⟩ => show win0_10.index t (1 : Fin 2) * 128 + 1 * (j 1).val = (j 1).val; omega
  show out0_10 (iblk m c 0 t) (iblk m c 1 t) (iblk m c 2 t) (iblk m c 3 t) (iblk m c 4 t) (V m c main_v15) (V m c main_v24)
      (V m c main_v33) (V m c main_v42) (V m c main_v51) j
    = regionOut (V m c main_v13) (V m c main_v22) (V m c main_v31) (V m c main_v40) (V m c main_v49)
        (V m c main_v15) (V m c main_v24) (V m c main_v33) (V m c main_v42) (V m c main_v51) (((cfg0.win 10).blk t).view.emb j)
  refine (congrArg _ hj).trans ((block_rows _ _ _ _ _ _ _ _ _ _ _ _ _ _ _ _ _ _ e0 e1 e2 e3 e4).trans (congrArg _ hemb.symm))

/-- An index of the output array is in point t's block iff its row is among rows 512 t .. 512 t + 511. -/
theorem mem_blk (t : Fin cfg0.N) (i : S500224x128.Idx) :
    i ∈ ((cfg0.win 10).blk t).view.set ↔ ∀ a : Fin 2, win0_10.index t a * S512x128.size a ≤ (i a).val
      ∧ (i a).val < win0_10.index t a * S512x128.size a + S512x128.size a := by
  show i ∈ ((View.whole main_v52).slice (win0_10.rect t)).set ↔ _
  rw [View.set_slice_whole, Rect.mem_set_unit]
  exact Iff.rfl

/-- Every row of the output array is written back by the point of its tile: row B by point B / 512. -/
theorem cover (i : S500224x128.Idx) :
    ∃ t : Fin cfg0.N, (cfg0.win 10).flush t = true ∧ i ∈ ((cfg0.win 10).blk t).view.set := by
  have hi0 : (i 0).val < 500224 := (i 0).isLt
  have hi1 : (i 1).val < 128 := (i 1).isLt
  refine ⟨⟨(i 0).val / 512, by show (i 0).val / 512 < 977; omega⟩, flush0_10 _, ?_⟩
  rw [mem_blk]
  obtain ⟨f0, f1⟩ : win0_10.index ⟨(i 0).val / 512, by show (i 0).val / 512 < 977; omega⟩ (0 : Fin 2) = (i 0).val / 512
      ∧ win0_10.index ⟨(i 0).val / 512, by show (i 0).val / 512 < 977; omega⟩ (1 : Fin 2) = 0 := by
    have := idx_facts ⟨(i 0).val / 512, by show (i 0).val / 512 < 977; omega⟩
    exact ⟨this.2.2.2.2.2.2.2.2.2.2.2.2.2.2.2.2.2.2.2.2.1, this.2.2.2.2.2.2.2.2.2.2.2.2.2.2.2.2.2.2.2.2.2⟩
  intro a
  match a with
  | ⟨0, _⟩ =>
    show win0_10.index _ (0 : Fin 2) * 512 ≤ (i 0).val ∧ (i 0).val < win0_10.index _ (0 : Fin 2) * 512 + 512
    rw [f0]; omega
  | ⟨1, _⟩ =>
    show win0_10.index _ (1 : Fin 2) * 128 ≤ (i 1).val ∧ (i 1).val < win0_10.index _ (1 : Fin 2) * 128 + 128
    rw [f1]; omega

/-- The output array after the region. -/
theorem final (c : Dev nD) : (dats m 0 c).arrAt 10 cfg0.N
    = regionOut (V m c main_v13) (V m c main_v22) (V m c main_v31) (V m c main_v40) (V m c main_v49)
        (V m c main_v15) (V m c main_v24) (V m c main_v33) (V m c main_v42) (V m c main_v51) :=
  (dats m 0 c).arrAt_eq_of_cover 10 _ (fun t _ => flushed_eq m c t) cover

end Cert.KernelSide

end
-- ==== Proof.KernelResult.lean ====
/-
  The kernel's result.  After the region @main keeps the first 500000 rows of the region's output.  On those rows
  every level's row number is  cell * 32 + time slice  with the cell below the level's cell count and the time slice
  below 32 (the certificate's precondition), so it names exactly row (cell, time slice) of the level's flattened
  table: the one-hot pick is the table's entry, and the five picks added to zero are the specification's sum.
-/
import proofs.«429726_j4380866642085_1_alg».proof.Proof.Spec
import proofs.«429726_j4380866642085_1_alg».proof.Proof.HostValues
import proofs.«429726_j4380866642085_1_alg».proof.Proof.BlockToArray
import proofs.«429726_j4380866642085_1_alg».proof.Proof.PreRanges
import Idealize.ShloMosaic.Lib.StableHlo.Run

set_option maxRecDepth 16384

noncomputable section

namespace Cert.KernelSide

open Cert.KernelIdeal Cert.KernelIdeal.Gen Idealize.ShloMosaic Idealize.ShloMosaic.TcCoe Idealize.SL.Sem
open Idealize.ShloMosaic.StableHlo Idealize.ShloMosaic.ValueIdx

/-- The row number of a cell below 256 and a time slice below 32 does not wrap. -/
theorem row_number_toNat (cw tw : BitVec 32) (hc : cw.toNat < 256) (ht : tw.toNat < 32) :
    (IntOp.addi (IntOp.muli cw 32#32) tw).toNat = cw.toNat * 32 + tw.toNat := by
  show (cw * 32#32 + tw).toNat = _
  rw [BitVec.toNat_add, BitVec.toNat_mul]
  have h32 : (32#32 : BitVec 32).toNat = 32 := rfl
  rw [h32]
  omega

/-- One level: with the cell and the time slice in range, the row that the row number picks in the flattened table is
    the level's term of the specification. -/
theorem hit_level {n R : ℕ} (hn : 0 < n) (hn' : n ≤ 256) (hR : R = n * 32)
    (h : (⟨3, ![n, 32, 128]⟩ : Shape).ShapeCasts ⟨2, ![R, 128]⟩) (p : FVec Ideal ⟨3, ![n, 32, 128]⟩ .f32)
    (cw tw : BitVec 32) (k : Fin 128) (hc : cw.toNat < n) (ht : tw.toNat < 32) :
    Cert.Spec.hit (IntOp.addi (IntOp.muli cw 32#32) tw) (tabArr h p) k = Cert.Spec.level hn p cw tw k := by
  have hw := row_number_toNat cw tw (by omega) ht
  have hlt : (IntOp.addi (IntOp.muli cw 32#32) tw).toNat < R := by rw [hw, hR]; omega
  have hlt' : cw.toNat * 32 + tw.toNat < R := by rw [hR]; omega
  unfold Cert.Spec.hit
  rw [dif_pos hlt, Cert.Spec.level_of_lt hn (by omega) p cw tw k hc ht]
  have e : (⟨(IntOp.addi (IntOp.muli cw 32#32) tw).toNat, hlt⟩ : Fin R)
      = ⟨(⟨cw.toNat, hc⟩ : Fin n).val * 32 + (⟨tw.toNat, ht⟩ : Fin 32).val, hlt'⟩ := Fin.ext hw
  rw [e]
  exact tabArr_apply h p ⟨cw.toNat, hc⟩ ⟨tw.toNat, ht⟩ k hlt'

/-- A row of the region's output below 500000, with every cell and time slice in range, is the specification's row. -/
theorem regionOut_row (p0 : FVec Ideal S1x32x128 .f32) (p1 : FVec Ideal S4x32x128 .f32) (p2 : FVec Ideal S16x32x128 .f32)
    (p3 : FVec Ideal S64x32x128 .f32) (p4 : FVec Ideal S256x32x128 .f32) (cells : IVec S5x500000 32) (ts : IVec S500000 32)
    (hc : ∀ (l : Fin 5) (b : Fin 500000), (cells (ix2 l b)).toNat < 4 ^ l.val)
    (ht : ∀ b : Fin 500000, (ts (ix1 b)).toNat < 32) (b : Fin 500000) (k : Fin 128) (hb : b.val < 500224) :
    regionOut (idxArr ![0, 0] Facts₀.slices_S5x500000_S1x500000_0_0 cells ts) (idxArr ![1, 0] Facts₀.slices_S5x500000_S1x500000_1_0 cells ts)
        (idxArr ![2, 0] Facts₀.slices_S5x500000_S1x500000_2_0 cells ts) (idxArr ![3, 0] Facts₀.slices_S5x500000_S1x500000_3_0 cells ts)
        (idxArr ![4, 0] Facts₀.slices_S5x500000_S1x500000_4_0 cells ts)
        (tabArr Facts₀.shapeCasts_S1x32x128_S32x128 p0) (tabArr Facts₀.shapeCasts_S4x32x128_S128x128 p1) (tabArr Facts₀.shapeCasts_S16x32x128_S512x128 p2)
        (tabArr Facts₀.shapeCasts_S64x32x128_S2048x128 p3) (tabArr Facts₀.shapeCasts_S256x32x128_S8192x128 p4)
        (ix2 (⟨b.val, hb⟩ : Fin 500224) k)
      = Cert.Spec.G p0 p1 p2 p3 p4 cells ts (ix2 b k) := by
  show 0 + Cert.Spec.hit ((idxArr ![0, 0] Facts₀.slices_S5x500000_S1x500000_0_0 cells ts) (ix2 (⟨b.val, hb⟩ : Fin 500224) (0 : Fin 1))) (tabArr Facts₀.shapeCasts_S1x32x128_S32x128 p0) k
      + Cert.Spec.hit ((idxArr ![1, 0] Facts₀.slices_S5x500000_S1x500000_1_0 cells ts) (ix2 (⟨b.val, hb⟩ : Fin 500224) (0 : Fin 1))) (tabArr Facts₀.shapeCasts_S4x32x128_S128x128 p1) k
      + Cert.Spec.hit ((idxArr ![2, 0] Facts₀.slices_S5x500000_S1x500000_2_0 cells ts) (ix2 (⟨b.val, hb⟩ : Fin 500224) (0 : Fin 1))) (tabArr Facts₀.shapeCasts_S16x32x128_S512x128 p2) k
      + Cert.Spec.hit ((idxArr ![3, 0] Facts₀.slices_S5x500000_S1x500000_3_0 cells ts) (ix2 (⟨b.val, hb⟩ : Fin 500224) (0 : Fin 1))) (tabArr Facts₀.shapeCasts_S64x32x128_S2048x128 p3) k
      + Cert.Spec.hit ((idxArr ![4, 0] Facts₀.slices_S5x500000_S1x500000_4_0 cells ts) (ix2 (⟨b.val, hb⟩ : Fin 500224) (0 : Fin 1))) (tabArr Facts₀.shapeCasts_S256x32x128_S8192x128 p4) k
    = Cert.Spec.level (by decide) p0 (cells (ix2 0 b)) (ts (ix1 b)) k + Cert.Spec.level (by decide) p1 (cells (ix2 1 b)) (ts (ix1 b)) k
      + Cert.Spec.level (by decide) p2 (cells (ix2 2 b)) (ts (ix1 b)) k + Cert.Spec.level (by decide) p3 (cells (ix2 3 b)) (ts (ix1 b)) k
      + Cert.Spec.level (by decide) p4 (cells (ix2 4 b)) (ts (ix1 b)) k
  rw [idxArr_apply _ _ 0 rfl rfl cells ts b hb, idxArr_apply _ _ 1 rfl rfl cells ts b hb, idxArr_apply _ _ 2 rfl rfl cells ts b hb,
    idxArr_apply _ _ 3 rfl rfl cells ts b hb, idxArr_apply _ _ 4 rfl rfl cells ts b hb]
  rw [hit_level (by decide) (by decide) rfl _ p0 _ _ k (hc 0 b) (ht b), hit_level (by decide) (by decide) rfl _ p1 _ _ k (hc 1 b) (ht b),
    hit_level (by decide) (by decide) rfl _ p2 _ _ k (hc 2 b) (ht b), hit_level (by decide) (by decide) rfl _ p3 _ _ k (hc 3 b) (ht b),
    hit_level (by decide) (by decide) rfl _ p4 _ _ k (hc 4 b) (ht b), zero_add]

variable (m : (ℓ : Loc nD τ sig) → Buf (Elt Ideal) ℓ)

/-- After the region @main keeps rows 0 .. 499999 of the region's output. -/
theorem result_eq (c : Dev nD) :
    Pipeline.afterTail₀ cfgs (dats m) 0 (V0 m) [hostOps1] c main_v53
      = extractStridedSlice S500000x128 ![0, 0] ((dats m 0 c).arrAt 10 cfg0.N) Facts₀.slices_S500224x128_S500000x128_0_0 := by
  unfold Pipeline.afterTail₀
  show StableHlo.after hostOps1 _ (Proc.devRef .tc main_v53) = _
  after_results
  exact congrArg (fun x => extractStridedSlice S500000x128 ![0, 0] x Facts₀.slices_S500224x128_S500000x128_0_0)
    (Pipeline.withArrays_arr spec0 launch0.win.arr_inj c _ _ 10)

set_option maxHeartbeats 4000000 in
/-- The kernel's result array, under the precondition's ranges, is the specification's. -/
theorem result_is_G (c : Dev nD)
    (hga : ∀ (l : Fin 5) (j : Fin 100000), (((m ((c : Thread nD τ).loc main_arg5)) : IVec S5x100000 32) (ix2 l j)).toNat < 4 ^ l.val)
    (hts : ∀ j : Fin 500000, (((m ((c : Thread nD τ).loc main_arg7)) : IVec S500000 32) (ix1 j)).toNat < 32) :
    Pipeline.afterTail₀ cfgs (dats m) 0 (V0 m) [hostOps1] c main_v53
      = Cert.Spec.G (m ((c : Thread nD τ).loc main_arg0)) (m ((c : Thread nD τ).loc main_arg1)) (m ((c : Thread nD τ).loc main_arg2)) (m ((c : Thread nD τ).loc main_arg3)) (m ((c : Thread nD τ).loc main_arg4))
          (cellsK (m ((c : Thread nD τ).loc main_arg5)) (m ((c : Thread nD τ).loc main_arg6))) (m ((c : Thread nD τ).loc main_arg7)) := by
  rw [result_eq, final, V_v13, V_v22, V_v31, V_v40, V_v49, V_v15, V_v24, V_v33, V_v42, V_v51]
  funext i
  obtain ⟨b, k, rfl⟩ : ∃ (b : Fin 500000) (k : Fin 128), i = ix2 b k := ⟨i 0, i 1, eq_ix2 i⟩
  have hb : b.val < 500224 := by have := b.isLt; omega
  rw [extractStridedSlice_apply ![0, 0] _ Facts₀.slices_S500224x128_S500000x128_0_0 (ix2 b k) (ix2 (⟨b.val, hb⟩ : Fin 500224) k) (by
    intro a
    match a with
    | ⟨0, _⟩ => show b.val = 0 + b.val; omega
    | ⟨1, _⟩ => show k.val = 0 + k.val; omega)]
  exact regionOut_row _ _ _ _ _ _ _
    (fun l b => Cert.PreRanges.cells_lt _ rfl rfl rfl rfl _ hga _ l b) hts b k hb

/-- The kernel's run with its result named: every weakly fair execution terminates with the result array at the
    specification's value and the arguments unchanged. -/
theorem kernel_run (ρ : Dev nD → PrngReg)
    (hga : ∀ (c : Dev nD) (l : Fin 5) (j : Fin 100000), (((m ((c : Thread nD τ).loc main_arg5)) : IVec S5x100000 32) (ix2 l j)).toNat < 4 ^ l.val)
    (hts : ∀ (c : Dev nD) (j : Fin 500000), (((m ((c : Thread nD τ).loc main_arg7)) : IVec S500000 32) (ix1 j)).toNat < 32) :
    θ_run defs (onTc (τ := τ) (main (F := Ideal))) ⟨m, fun _ => 0, ρ⟩ (fun r => ∀ c : Dev nD,
      r.2.mem ((c.tc : Thread nD τ).loc main_v53)
        = Cert.Spec.G (m ((c : Thread nD τ).loc main_arg0)) (m ((c : Thread nD τ).loc main_arg1)) (m ((c : Thread nD τ).loc main_arg2)) (m ((c : Thread nD τ).loc main_arg3)) (m ((c : Thread nD τ).loc main_arg4))
            (cellsK (m ((c : Thread nD τ).loc main_arg5)) (m ((c : Thread nD τ).loc main_arg6))) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v53 (Pipeline.mem_restRefs_of main_v53 (by decide) (by decide))).trans (result_is_G m c (hga c) (hts c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelSide

end
-- ==== Proof.lean ====
/-
  The certificate: a batched gather-and-sum over a five-level pyramid of parameter tables.

  For every query b (a location and a time slice) and topic k the result is
      sum over levels h = 0 .. 4 of  params_h[cell_h(b), t(b), k],
  cell_h(b) being row h of grid_assignments at the query's location.  The reference gathers each level's table at the
  pair (cell, time slice) and adds the five gathers.  The kernel folds the pair into one row number
  cell * 32 + time slice  of the level's table flattened to [cells * 32, 128], builds the one-hot row of that number
  and multiplies it with the flattened table on the matrix unit, tile by tile of 512 queries; over the extended reals
  a one-hot row times a table is the table's row, so the two programs agree wherever every cell is below its level's
  cell count 4^h and every time slice is below 32.  That is the precondition: beside the tables' finiteness it asks
  0 <= time_slices < 32 and 0 <= grid_assignments[h] < 4^h, the ranges of the arrays these words index (outside
  them the reference's gather clamps while the kernel's row number names another row, or none).

  The frames of the two kernel programs are the generated ones; the reference's frame is its generated run.  The
  kernel's value is read off the generated frame run: the host operations before the region (HostArrays,
  HostValues), the body's block (BlockValue), the blocks assembled into the region's output (BlockToArray), the slice
  after the region and the ranges (KernelResult, PreRanges); the reference's value is its generated run read stage by
  stage (RefSide).  Both are the one function Spec.G of the arguments, over the same cells array.
-/
import proofs.«429726_j4380866642085_1_alg».proof.Defs
import proofs.«429726_j4380866642085_1_alg».proof.Proof.Gen.Kernel
import proofs.«429726_j4380866642085_1_alg».proof.Proof.Gen.Kernel.Skeleton
import proofs.«429726_j4380866642085_1_alg».proof.Proof.Gen.Kernel.Launch
import proofs.«429726_j4380866642085_1_alg».proof.Proof.Gen.Kernel.Points
import proofs.«429726_j4380866642085_1_alg».proof.Proof.Gen.Kernel.Frame
import proofs.«429726_j4380866642085_1_alg».proof.Proof.Gen.KernelIdeal
import proofs.«429726_j4380866642085_1_alg».proof.Proof.Gen.KernelIdeal.Skeleton
import proofs.«429726_j4380866642085_1_alg».proof.Proof.Gen.KernelIdeal.Launch
import proofs.«429726_j4380866642085_1_alg».proof.Proof.Gen.KernelIdeal.Points
import proofs.«429726_j4380866642085_1_alg».proof.Proof.Gen.KernelIdeal.Frame
import proofs.«429726_j4380866642085_1_alg».proof.Proof.Gen.ReferenceIdeal
import proofs.«429726_j4380866642085_1_alg».proof.Proof.Gen.ReferenceIdeal.Run
import proofs.«429726_j4380866642085_1_alg».proof.Proof.Gen.ReferenceIdeal.Read
import proofs.«429726_j4380866642085_1_alg».proof.Proof.Gen.Pre_finite_inputs
import proofs.«429726_j4380866642085_1_alg».proof.Proof.Spec
import proofs.«429726_j4380866642085_1_alg».proof.Proof.PreRanges
import proofs.«429726_j4380866642085_1_alg».proof.Proof.RefSide
import proofs.«429726_j4380866642085_1_alg».proof.Proof.KernelResult
import Idealize.ShloMosaic.Adequacy
import Idealize.ShloMosaic.Init

noncomputable section

namespace Cert.Proof

open Idealize.ShloMosaic Idealize.ShloMosaic.TcCoe Idealize.SL.Sem Idealize.ShloMosaic.ValueIdx

/-- The cells array is one term in both programs: the same column gather of grid_assignments at the wrapped
    locations. -/
theorem cells_eq (ga : IVec Cert.KernelIdeal.S5x100000 32) (loc : IVec Cert.KernelIdeal.S500000 32) :
    Cert.ReferenceIdeal.Read.val_main_v6 (F := Ideal) ga loc = Cert.KernelSide.cellsK ga loc := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the specification's array of their (agreeing) arguments. -/
theorem algebraic : Cert.algebraic_KernelIdeal_ReferenceIdeal := by
  intro m ρ m' ρ' hpre hagree
  have hr := fun c : Dev Cert.KernelIdeal.nD => Cert.PreRanges.ranges_of_pre _ _ _ _ _ _ _ _ (hpre c)
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (Cert.KernelSide.cellsK (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg7)),
    Cert.KernelSide.kernel_run m ρ (fun c => (hr c).2) (fun c => (hr c).1), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v90_eq, Cert.RefSide.ref_is_G, cells_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
